-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128 : Shape := ⟨1, ![128]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S16x8 .f32) (main_arg11 : FVec F S8 .f32) (main_arg12 : FVec F S8x1 .f32) (main_arg13 : FVec F S1 .f32) (main_v33 : IVec S_ 1) : IVec S_ 1 :=
  let main_v34 : FVec F S16x8 .f32 := Host.absf main_arg10
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S8 .f32 := Host.absf main_arg11
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x1 .f32 := Host.absf main_arg12
  let main_cst_16 : FVec F S_ .f32 := constant S_ .f32 0x7F800000#32
  let main_v45 : FVec F S8x1 .f32 := broadcastInDim S8x1 ![] bcast_S_S8x1 main_cst_16
  let main_v46 : IVec S8x1 1 := cmpf .olt main_v44 main_v45
  let main_c_17 : IVec S_ 1 := constantI S_ 1 1#1
  let main_v47 : IVec S_ 1 := (fun x v => Host.reduce IntOp.andi x v reducesTo_S8x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S128 .f32) (main_arg8 : FVec F S128x16 .f32) (main_arg9 : FVec F S16 .f32) (main_arg10 : FVec F S16x8 .f32) (main_arg11 : FVec F S8 .f32) (main_arg12 : FVec F S8x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg8
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : FVec F S1600000 .f32) (main_arg2 : IVec S1600000 32) (main_arg3 : IVec S1600000 32) (main_arg4 : IVec S100000 32) (main_arg5 : FVec F S128 .f32) (main_arg6 : FVec F S128 .f32) (main_arg7 : FVec F S128 .f32) (main_arg8 : FVec F S128x16 .f32) (main_arg9 : FVec F S16 .f32) (main_arg10 : FVec F S16x8 .f32) (main_arg11 : FVec F S8 .f32) (main_arg12 : FVec F S8x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S100000 : Shape := ⟨1, ![100000]⟩
abbrev S128 : Shape := ⟨1, ![128]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S100 : Shape := ⟨1, ![100]⟩
abbrev S100x1 : Shape := ⟨2, ![100, 1]⟩
abbrev S1x128 : Shape := ⟨2, ![1, 128]⟩
abbrev S1x16 : Shape := ⟨2, ![1, 16]⟩
abbrev S1x8 : Shape := ⟨2, ![1, 8]⟩
abbrev S1x1 : Shape := ⟨2, ![1, 1]⟩
abbrev S5000x128 : Shape := ⟨2, ![5000, 128]⟩
abbrev S5000x1 : Shape := ⟨2, ![5000, 1]⟩
abbrev S100x128 : Shape := ⟨2, ![100, 128]⟩
abbrev S5000x100 : Shape := ⟨2, ![5000, 100]⟩
abbrev S100x16 : Shape := ⟨2, ![100, 16]⟩
abbrev S100x8 : Shape := ⟨2, ![100, 8]⟩

abbrev nBuf : Space → Nat
  | .hbm => 75
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S8x1, .f32⟩
  | .hbm, ⟨13, _⟩ => ⟨S1, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S100000, .f32⟩
  | .hbm, ⟨61, _⟩ => ⟨S_, .f32⟩
  | .hbm, ⟨62, _⟩ => ⟨S100, .f32⟩
  | .hbm, ⟨63, _⟩ => ⟨S100000x1, .i32⟩
  | .hbm, ⟨64, _⟩ => ⟨S100, .f32⟩
  | .hbm, ⟨65, _⟩ => ⟨S_, .f32⟩
  | .hbm, ⟨66, _⟩ => ⟨S100, .f32⟩
  | .hbm, ⟨67, _⟩ => ⟨S100, .f32⟩
  | .hbm, ⟨68, _⟩ => ⟨S100x1, .f32⟩
  | .hbm, ⟨69, _⟩ => ⟨S100000x1, .i32⟩
  | .hbm, ⟨70, _⟩ => ⟨S1x128, .f32⟩
  | .hbm, ⟨71, _⟩ => ⟨S1x16, .f32⟩
  | .hbm, ⟨72, _⟩ => ⟨S1x8, .f32⟩
  | .hbm, ⟨73, _⟩ => ⟨S1x1, .f32⟩
  | .hbm, ⟨74, _⟩ => ⟨S100x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .i32⟩
  | .local _ .vmem, ⟨5, _⟩ => ⟨S5000x1, .i32⟩
  | .local _ .vmem, ⟨6, _⟩ => ⟨S1x128, .f32⟩
  | .local _ .vmem, ⟨7, _⟩ => ⟨S100x1, .f32⟩
  | .local _ .vmem, ⟨8, _⟩ => ⟨S128x16, .f32⟩
  | .local _ .vmem, ⟨9, _⟩ => ⟨S1x16, .f32⟩
  | .local _ .vmem, ⟨10, _⟩ => ⟨S16x8, .f32⟩
  | .local _ .vmem, ⟨11, _⟩ => ⟨S1x8, .f32⟩
  | .local _ .vmem, ⟨12, _⟩ => ⟨S8x1, .f32⟩
  | .local _ .vmem, ⟨13, _⟩ => ⟨S1x1, .f32⟩
  | .local _ .vmem, ⟨14, _⟩ => ⟨S100x1, .f32⟩
  | .local _ .vmem, ⟨15, _⟩ => ⟨S100x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v30 : BitVec 1 := Scalar.cmpi .eq arg0 c19_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S100x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100 : S_.BroadcastsInDim S100 (![] : Fin 0 → Fin S100.rank)
  bcast_S100000_S100000x1_0 : S100000.BroadcastsInDim S100000x1 (![0] : Fin 1 → Fin S100000x1.rank)
  shapeCasts_S100_S100x1 : S100.ShapeCasts S100x1
  shapeCasts_S128_S1x128 : S128.ShapeCasts S1x128
  shapeCasts_S16_S1x16 : S16.ShapeCasts S1x16
  shapeCasts_S8_S1x8 : S8.ShapeCasts S1x8
  shapeCasts_S1_S1x1 : S1.ShapeCasts S1x1
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  iota_S5000x100_d1_w32 : S5000x100.Iotas .tc 32 [1]
  broadcasts_S5000x1_S5000x100 : S5000x1.Broadcasts S5000x100
  natLt_1_32 : 1 < 32
  bitsLt_bf16_f32 : FTy.bits .bf16 < FTy.bits .f32
  inb_S100x1_S100x1_0_0 : ∀ a, (![0, 0] : Fin 2 → Nat) a + S100x1.size a ≤ S100x1.size a
  h_S100x1 : 0 < S100x1.numel
  shapeCasts_S100x1_S100x1 : S100x1.ShapeCasts S100x1
  broadcasts_S100x1_S100x128 : S100x1.Broadcasts S100x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S100x16 : S1x16.Broadcasts S100x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S100x8 : S1x8.Broadcasts S100x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S100x1 : S1x1.Broadcasts S100x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100_S100000x1_S100000_n_0_0_1_wf : ScatterDims.WF S100 S100000x1 S100000 [] [0] [0] 1
  dot_S5000x100_S5000x128_S100x128_0_0_1_1_n_n_wf : DotDims.WF S5000x100 S5000x128 S100x128 [0] [0] [1] [1] [] []
  dot_S100x128_S128x16_S100x16_1_0_0_1_n_n_wf : DotDims.WF S100x128 S128x16 S100x16 [1] [0] [0] [1] [] []
  dot_S100x16_S16x8_S100x8_1_0_0_1_n_n_wf : DotDims.WF S100x16 S16x8 S100x8 [1] [0] [0] [1] [] []
  dot_S100x8_S8x1_S100x1_1_0_0_1_n_n_wf : DotDims.WF S100x8 S8x1 S100x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .i32 = 32 ∨ (Rect.block (s := S100000x1) S5000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x1.size a ≤ S100x1.size a
  hwx0_4 : ∀ i : grid0.Coords, EltTy.bits .f32 = 32 ∨ (Rect.block (s := S100x1) S100x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x16.size a ≤ S128x16.size a
  hwx0_5 : ∀ i : grid0.Coords, EltTy.bits .f32 = 32 ∨ (Rect.block (s := S128x16) S128x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x8.size a ≤ S16x8.size a
  hwx0_7 : ∀ i : grid0.Coords, EltTy.bits .f32 = 32 ∨ (Rect.block (s := S16x8) S16x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S8x1.size a
  hwx0_9 : ∀ i : grid0.Coords, EltTy.bits .f32 = 32 ∨ (Rect.block (s := S8x1) S8x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S100x1.size a ≤ S100x1.size a
  hwx0_11 : ∀ i : grid0.Coords, EltTy.bits .f32 = 32 ∨ (Rect.block (s := S100x1) S100x1.size (cc0_transform_11 i) (hinb0_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def dot_S5000x100_S5000x128_S100x128_0_0_1_1_n_n : DotDims S5000x100 S5000x128 S100x128 where
  lhsContracting := [0]
  rhsContracting := [0]
  lhsNonContracting := [1]
  rhsNonContracting := [1]
  lhsBatch := []
  rhsBatch := []
  wf := dot_S5000x100_S5000x128_S100x128_0_0_1_1_n_n_wf
def dot_S100x128_S128x16_S100x16_1_0_0_1_n_n : DotDims S100x128 S128x16 S100x16 where
  lhsContracting := [1]
  rhsContracting := [0]
  lhsNonContracting := [0]
  rhsNonContracting := [1]
  lhsBatch := []
  rhsBatch := []
  wf := dot_S100x128_S128x16_S100x16_1_0_0_1_n_n_wf
def dot_S100x16_S16x8_S100x8_1_0_0_1_n_n : DotDims S100x16 S16x8 S100x8 where
  lhsContracting := [1]
  rhsContracting := [0]
  lhsNonContracting := [0]
  rhsNonContracting := [1]
  lhsBatch := []
  rhsBatch := []
  wf := dot_S100x16_S16x8_S100x8_1_0_0_1_n_n_wf
def dot_S100x8_S8x1_S100x1_1_0_0_1_n_n : DotDims S100x8 S8x1 S100x1 where
  lhsContracting := [1]
  rhsContracting := [0]
  lhsNonContracting := [0]
  rhsNonContracting := [1]
  lhsBatch := []
  rhsBatch := []
  wf := dot_S100x8_S8x1_S100x1_1_0_0_1_n_n_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S100x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S16x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S8x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47) S100x1.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128 : Shape := ⟨1, ![128]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100 : Shape := ⟨1, ![100]⟩
abbrev S100x128 : Shape := ⟨2, ![100, 128]⟩
abbrev S100x1 : Shape := ⟨2, ![100, 1]⟩
abbrev S100x16 : Shape := ⟨2, ![100, 16]⟩
abbrev S1x16 : Shape := ⟨2, ![1, 16]⟩
abbrev S100x8 : Shape := ⟨2, ![100, 8]⟩
abbrev S1x8 : Shape := ⟨2, ![1, 8]⟩
abbrev S1x1 : Shape := ⟨2, ![1, 1]⟩

abbrev nBuf : Space → Nat
  | .hbm => 201
  | .vmem => 0
  | .smem => 0
  | _ => 0

abbrev hbmTy0_0 (i : Nat) : BufTy := match i % 128 with
  | 0 => ⟨S100000x128, .f32⟩
  | 1 => ⟨S1600000, .f32⟩
  | 2 => ⟨S1600000, .i32⟩
  | 3 => ⟨S1600000, .i32⟩
  | 4 => ⟨S100000, .i32⟩
  | 5 => ⟨S128, .f32⟩
  | 6 => ⟨S128, .f32⟩
  | 7 => ⟨S128, .f32⟩
  | 8 => ⟨S128x16, .f32⟩
  | 9 => ⟨S16, .f32⟩
  | 10 => ⟨S16x8, .f32⟩
  | 11 => ⟨S8, .f32⟩
  | 12 => ⟨S8x1, .f32⟩
  | 13 => ⟨S1, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S1600000x1, .f32⟩
  | 46 => ⟨S1600000x128, .f32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S100000, .f32⟩
  | 53 => ⟨S100000x1, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S_, .f32⟩
  | 63 => ⟨S1600000, .f32⟩
  | 64 => ⟨S_, .f32⟩
  | 65 => ⟨S100000, .f32⟩
  | 66 => ⟨S1600000x1, .i32⟩
  | 67 => ⟨S100000, .f32⟩
  | 68 => ⟨S_, .f32⟩
  | 69 => ⟨S_, .f32⟩
  | 70 => ⟨S100000, .f32⟩
  | 71 => ⟨S100000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S_, .f32⟩
  | 78 => ⟨S100000, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S1600000x1, .f32⟩
  | 94 => ⟨S1600000x128, .f32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S100000, .f32⟩
  | 101 => ⟨S100000x1, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S_, .f32⟩
  | 118 => ⟨S100000, .f32⟩
  | 119 => ⟨S100000, .f32⟩
  | 120 => ⟨S_, .f32⟩
  | 121 => ⟨S100000, .f32⟩
  | 122 => ⟨S1600000x1, .i32⟩
  | 123 => ⟨S100000, .f32⟩
  | 124 => ⟨S_, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S100000, .f32⟩
  | 1 => ⟨S100000x1, .f32⟩
  | 2 => ⟨S100000x128, .f32⟩
  | 3 => ⟨S100000x128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S1600000x1, .f32⟩
  | 14 => ⟨S1600000x128, .f32⟩
  | 15 => ⟨S1600000x128, .f32⟩
  | 16 => ⟨S_, .f32⟩
  | 17 => ⟨S100000x128, .f32⟩
  | 18 => ⟨S1600000x1, .i32⟩
  | 19 => ⟨S100000x128, .f32⟩
  | 20 => ⟨S100000, .f32⟩
  | 21 => ⟨S100000x1, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .f32⟩
  | 31 => ⟨S100000, .f32⟩
  | 32 => ⟨S_, .f32⟩
  | 33 => ⟨S100, .f32⟩
  | 34 => ⟨S100000x1, .i32⟩
  | 35 => ⟨S100, .f32⟩
  | 36 => ⟨S_, .f32⟩
  | 37 => ⟨S_, .f32⟩
  | 38 => ⟨S100, .f32⟩
  | 39 => ⟨S100, .f32⟩
  | 40 => ⟨S_, .f32⟩
  | 41 => ⟨S100x128, .f32⟩
  | 42 => ⟨S100000x1, .i32⟩
  | 43 => ⟨S100x128, .f32⟩
  | 44 => ⟨S100x1, .f32⟩
  | 45 => ⟨S100x128, .f32⟩
  | 46 => ⟨S100x128, .f32⟩
  | 47 => ⟨S100x16, .f32⟩
  | 48 => ⟨S1x16, .f32⟩
  | 49 => ⟨S100x16, .f32⟩
  | 50 => ⟨S100x16, .f32⟩
  | 51 => ⟨S_, .f32⟩
  | 52 => ⟨S100x16, .f32⟩
  | 53 => ⟨S100x16, .f32⟩
  | 54 => ⟨S100x8, .f32⟩
  | 55 => ⟨S1x8, .f32⟩
  | 56 => ⟨S100x8, .f32⟩
  | 57 => ⟨S100x8, .f32⟩
  | 58 => ⟨S_, .f32⟩
  | 59 => ⟨S100x8, .f32⟩
  | 60 => ⟨S100x8, .f32⟩
  | 61 => ⟨S100x1, .f32⟩
  | 62 => ⟨S1x1, .f32⟩
  | 63 => ⟨S100x1, .f32⟩
  | 64 => ⟨S100x1, .f32⟩
  | 65 => ⟨S100x1, .f32⟩
  | 66 => ⟨S100x1, .f32⟩
  | 67 => ⟨S_, .f32⟩
  | 68 => ⟨S100x1, .f32⟩
  | 69 => ⟨S100x1, .f32⟩
  | 70 => ⟨S_, .f32⟩
  | 71 => ⟨S100x1, .f32⟩
  | 72 => ⟨S100x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_cst : Ref sig .tc := ⟨.hbm, 59, rfl⟩
abbrev main_call2_v0 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_call3_v0 : Ref sig .tc := ⟨.hbm, 69, rfl⟩
abbrev main_call3_v1 : Ref sig .tc := ⟨.hbm, 70, rfl⟩
abbrev main_v38 : Ref sig .tc := ⟨.hbm, 71, rfl⟩
abbrev main_cst_9 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_10 : Ref sig .tc := ⟨.hbm, 76, rfl⟩
abbrev main_call4_v0 : Ref sig .tc := ⟨.hbm, 77, rfl⟩
abbrev main_call4_v1 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_11 : Ref sig .tc := ⟨.hbm, 84, rfl⟩
abbrev main_v47 : Ref sig .tc := ⟨.hbm, 85, rfl⟩
abbrev main_v48 : Ref sig .tc := ⟨.hbm, 86, rfl⟩
abbrev main_c_12 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_13 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call5_cst : Ref sig .tc := ⟨.hbm, 107, rfl⟩
abbrev main_call5_v0 : Ref sig .tc := ⟨.hbm, 108, rfl⟩
abbrev main_v67 : Ref sig .tc := ⟨.hbm, 109, rfl⟩
abbrev main_cst_14 : Ref sig .tc := ⟨.hbm, 110, rfl⟩
abbrev main_v68 : Ref sig .tc := ⟨.hbm, 111, rfl⟩
abbrev main_cst_15 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_16 : Ref sig .tc := ⟨.hbm, 116, rfl⟩
abbrev main_call6_v0 : Ref sig .tc := ⟨.hbm, 117, rfl⟩
abbrev main_call6_v1 : Ref sig .tc := ⟨.hbm, 118, rfl⟩
abbrev main_v72 : Ref sig .tc := ⟨.hbm, 119, rfl⟩
abbrev main_cst_17 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_18 : Ref sig .tc := ⟨.hbm, 124, rfl⟩
abbrev main_call7_v0 : Ref sig .tc := ⟨.hbm, 125, rfl⟩
abbrev main_call7_v1 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_c_19 : Ref sig .tc := ⟨.hbm, 132, rfl⟩
abbrev main_v81 : Ref sig .tc := ⟨.hbm, 133, rfl⟩
abbrev main_v82 : Ref sig .tc := ⟨.hbm, 134, rfl⟩
abbrev main_c_20 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_21 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_call8_cst : Ref sig .tc := ⟨.hbm, 155, rfl⟩
abbrev main_call8_v0 : Ref sig .tc := ⟨.hbm, 156, rfl⟩
abbrev main_v101 : Ref sig .tc := ⟨.hbm, 157, rfl⟩
abbrev main_cst_22 : Ref sig .tc := ⟨.hbm, 158, rfl⟩
abbrev main_v102 : Ref sig .tc := ⟨.hbm, 159, rfl⟩
abbrev main_cst_23 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_24 : Ref sig .tc := ⟨.hbm, 164, rfl⟩
abbrev main_call9_v0 : Ref sig .tc := ⟨.hbm, 165, rfl⟩
abbrev main_call9_v1 : Ref sig .tc := ⟨.hbm, 166, rfl⟩
abbrev main_v106 : Ref sig .tc := ⟨.hbm, 167, rfl⟩
abbrev main_cst_25 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_call10_cst : Ref sig .tc := ⟨.hbm, 179, rfl⟩
abbrev main_call10_v0 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_call11_cst : Ref sig .tc := ⟨.hbm, 186, rfl⟩
abbrev main_call11_v0 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_cst_26 : Ref sig .tc := ⟨.hbm, 195, rfl⟩
abbrev main_v129 : Ref sig .tc := ⟨.hbm, 196, rfl⟩
abbrev main_v130 : Ref sig .tc := ⟨.hbm, 197, rfl⟩
abbrev main_cst_27 : Ref sig .tc := ⟨.hbm, 198, rfl⟩
abbrev main_v131 : Ref sig .tc := ⟨.hbm, 199, rfl⟩
abbrev main_v132 : Ref sig .tc := ⟨.hbm, 200, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100 : S_.BroadcastsInDim S100 (![] : Fin 0 → Fin S100.rank)
  bcast_S_S100x128 : S_.BroadcastsInDim S100x128 (![] : Fin 0 → Fin S100x128.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  bcast_S16_S1x16_1 : S16.BroadcastsInDim S1x16 (![1] : Fin 1 → Fin S1x16.rank)
  bcast_S1x16_S100x16_0_1 : S1x16.BroadcastsInDim S100x16 (![0, 1] : Fin 2 → Fin S100x16.rank)
  bcast_S_S100x16 : S_.BroadcastsInDim S100x16 (![] : Fin 0 → Fin S100x16.rank)
  bcast_S8_S1x8_1 : S8.BroadcastsInDim S1x8 (![1] : Fin 1 → Fin S1x8.rank)
  bcast_S1x8_S100x8_0_1 : S1x8.BroadcastsInDim S100x8 (![0, 1] : Fin 2 → Fin S100x8.rank)
  bcast_S_S100x8 : S_.BroadcastsInDim S100x8 (![] : Fin 0 → Fin S100x8.rank)
  bcast_S1_S1x1_1 : S1.BroadcastsInDim S1x1 (![1] : Fin 1 → Fin S1x1.rank)
  bcast_S1x1_S100x1_0_1 : S1x1.BroadcastsInDim S100x1 (![0, 1] : Fin 2 → Fin S100x1.rank)
  bcast_S_S100x1 : S_.BroadcastsInDim S100x1 (![] : Fin 0 → Fin S100x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100_S100000x1_S100000_n_0_0_1_wf : ScatterDims.WF S100 S100000x1 S100000 [] [0] [0] 1
  scatter_S100x128_S100000x1_S100000x128_1_0_0_1_wf : ScatterDims.WF S100x128 S100000x1 S100000x128 [1] [0] [0] 1
  dot_S100x128_S128x16_S100x16_1_0_0_1_n_n_wf : DotDims.WF S100x128 S128x16 S100x16 [1] [0] [0] [1] [] []
  dot_S100x16_S16x8_S100x8_1_0_0_1_n_n_wf : DotDims.WF S100x16 S16x8 S100x8 [1] [0] [0] [1] [] []
  dot_S100x8_S8x1_S100x1_1_0_0_1_n_n_wf : DotDims.WF S100x8 S8x1 S100x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100_S100000x1_S100000_n_0_0_1 : ScatterDims S100 S100000x1 S100000 where
  updateWindowDims := []
  insertedWindowDims := [0]
  scatterDimsToOperandDims := [0]
  indexVectorDim := 1
  wf := scatter_S100_S100000x1_S100000_n_0_0_1_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def dot_S100x128_S128x16_S100x16_1_0_0_1_n_n : DotDims S100x128 S128x16 S100x16 where
  lhsContracting := [1]
  rhsContracting := [0]
  lhsNonContracting := [0]
  rhsNonContracting := [1]
  lhsBatch := []
  rhsBatch := []
  wf := dot_S100x128_S128x16_S100x16_1_0_0_1_n_n_wf
def dot_S100x16_S16x8_S100x8_1_0_0_1_n_n : DotDims S100x16 S16x8 S100x8 where
  lhsContracting := [1]
  rhsContracting := [0]
  lhsNonContracting := [0]
  rhsNonContracting := [1]
  lhsBatch := []
  rhsBatch := []
  wf := dot_S100x16_S16x8_S100x8_1_0_0_1_n_n_wf
def dot_S100x8_S8x1_S100x1_1_0_0_1_n_n : DotDims S100x8 S8x1 S100x1 where
  lhsContracting := [1]
  rhsContracting := [0]
  lhsNonContracting := [0]
  rhsNonContracting := [1]
  lhsBatch := []
  rhsBatch := []
  wf := dot_S100x8_S8x1_S100x1_1_0_0_1_n_n_wf

class Facts : Prop extends Facts₀ where

variable [Facts]
-- ==== Proof.KernelPieces.lean ====
/-
  What each control case of the kernel body leaves behind, as the body's payload terms.

  The body carries an accumulator block of shape [100, 128] between grid points.  At the first point it stores the
  zero block into the accumulator, reads it back and adds the point's contribution; at every later point it reads the
  accumulator the point before left and adds the point's contribution; at the last point it also reads the finished
  accumulator, after that store, and puts the small dense network's result on it into the output block.  Each lemma
  says one of these in closed form, for every float instance: the block a case leaves is a payload of the body applied
  to the blocks the case loaded.
-/
import proofs.«419579_j69784628626008_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The origin of a rank-2 block, as the constant-zero offset. -/
theorem hz : (![0, 0] : Fin 2 → Nat) = fun _ => 0 := funext fun a => by fin_cases a <;> rfl

/-- CASE A (the first point): the accumulator ends as the point's contribution added to the zero block, which the body
    stored and read back. -/
theorem scratch_A (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S1x128 .f32) (harg4 : arg4.IsWhole) (arg5 : Memref sig .tc .vmem S100x1 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S16x8 .f32) (harg8 : arg8.IsWhole) (arg9 : Memref sig .tc .vmem S1x8 .f32) (harg9 : arg9.IsWhole) (arg10 : Memref sig .tc .vmem S8x1 .f32) (harg10 : arg10.IsWhole) (arg11 : Memref sig .tc .vmem S1x1 .f32) (harg11 : arg11.IsWhole) (arg12 : Memref sig .tc .vmem S100x1 .f32) (harg12 : arg12.IsWhole) (arg13 : Memref sig .tc .vmem S100x128 .f32) (harg13 : arg13.IsWhole) (hc0 : cond0_0 i) (hc1 : ¬cond0_1 i) (x0 : Vec F S5000x128 .f32) (x1 : Vec F S5000x1 .f32) (x2 : Vec F S5000x1 .i32) (x3 : Vec F S1x128 .f32) (x4 : Vec F S100x1 .f32) (x5 : Vec F S128x16 .f32) (x6 : Vec F S1x16 .f32) (x7 : Vec F S16x8 .f32) (x8 : Vec F S1x8 .f32) (x9 : Vec F S8x1 .f32) (x10 : Vec F S1x1 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10
      = k0_pay2 x0 x1 x3 x2 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10)]
  unfold kernelRun0_A
  dsimp only
  sl_unfold_words
  rw [View.canon_cons_unit_zero (S := S100x128) hz, View.readCov_unit_zero (S := S100x128) _ hz]
  simp only [View.readAt_eq_ld, harg1.read_unread, harg2.read_unread, harg3.read_unread, harg4.read_unread, View.ld_unit_zero (S := S5000x128) hz, View.ld_unit_zero (S := S5000x1) hz, View.ld_unit_zero (S := S1x128) hz,
    View.readCov_unit_zero (S := S100x128) _ hz]

/-- CASE B (a middle point): the accumulator ends as the point's contribution added to what the point before left. -/
theorem scratch_B (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S1x128 .f32) (harg4 : arg4.IsWhole) (arg5 : Memref sig .tc .vmem S100x1 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S16x8 .f32) (harg8 : arg8.IsWhole) (arg9 : Memref sig .tc .vmem S1x8 .f32) (harg9 : arg9.IsWhole) (arg10 : Memref sig .tc .vmem S8x1 .f32) (harg10 : arg10.IsWhole) (arg11 : Memref sig .tc .vmem S1x1 .f32) (harg11 : arg11.IsWhole) (arg12 : Memref sig .tc .vmem S100x1 .f32) (harg12 : arg12.IsWhole) (arg13 : Memref sig .tc .vmem S100x128 .f32) (harg13 : arg13.IsWhole) (hc0 : ¬cond0_0 i) (hc1 : ¬cond0_1 i) (x0 : Vec F S5000x128 .f32) (x1 : Vec F S5000x1 .f32) (x2 : Vec F S5000x1 .i32) (x3 : Vec F S1x128 .f32) (x4 : Vec F S100x1 .f32) (x5 : Vec F S128x16 .f32) (x6 : Vec F S1x16 .f32) (x7 : Vec F S16x8 .f32) (x8 : Vec F S1x8 .f32) (x9 : Vec F S8x1 .f32) (x10 : Vec F S1x1 .f32) (xs0 : Vec F S100x128 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0
      = k0_pay2 x0 x1 x3 x2 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg13.read_unread, View.ld_unit_zero (S := S5000x128) hz, View.ld_unit_zero (S := S5000x1) hz, View.ld_unit_zero (S := S1x128) hz,
    View.ld_unit_zero (S := S100x128) hz]

/-- CASE C (the last point): the accumulator ends as the point's contribution added to what the point before left. -/
theorem scratch_C (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S1x128 .f32) (harg4 : arg4.IsWhole) (arg5 : Memref sig .tc .vmem S100x1 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S16x8 .f32) (harg8 : arg8.IsWhole) (arg9 : Memref sig .tc .vmem S1x8 .f32) (harg9 : arg9.IsWhole) (arg10 : Memref sig .tc .vmem S8x1 .f32) (harg10 : arg10.IsWhole) (arg11 : Memref sig .tc .vmem S1x1 .f32) (harg11 : arg11.IsWhole) (arg12 : Memref sig .tc .vmem S100x1 .f32) (harg12 : arg12.IsWhole) (arg13 : Memref sig .tc .vmem S100x128 .f32) (harg13 : arg13.IsWhole) (hc0 : ¬cond0_0 i) (hc1 : cond0_1 i) (x0 : Vec F S5000x128 .f32) (x1 : Vec F S5000x1 .f32) (x2 : Vec F S5000x1 .i32) (x3 : Vec F S1x128 .f32) (x4 : Vec F S100x1 .f32) (x5 : Vec F S128x16 .f32) (x6 : Vec F S1x16 .f32) (x7 : Vec F S16x8 .f32) (x8 : Vec F S1x8 .f32) (x9 : Vec F S8x1 .f32) (x10 : Vec F S1x1 .f32) (xs0 : Vec F S100x128 .f32) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0
      = k0_pay2 x0 x1 x3 x2 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_C
  dsimp only
  sl_unfold_words
  rw [View.canon_unit_zero hz]
  simp only [View.readAt_eq_ld, harg1.read_unread, harg2.read_unread, harg3.read_unread, harg4.read_unread, harg13.read_unread, View.ld_unit_zero (S := S5000x128) hz, View.ld_unit_zero (S := S5000x1) hz, View.ld_unit_zero (S := S1x128) hz,
    View.ld_unit_zero (S := S100x128) hz]

/-- CASE C (the last point): the output block is the dense network's payload on the finished accumulator, read after
    the accumulating store. -/
theorem out_C (c : Dev nD) (i : grid0.Coords) (arg1 : Memref sig .tc .vmem S5000x128 .f32) (harg1 : arg1.IsWhole) (arg2 : Memref sig .tc .vmem S5000x1 .f32) (harg2 : arg2.IsWhole) (arg3 : Memref sig .tc .vmem S5000x1 .i32) (harg3 : arg3.IsWhole) (arg4 : Memref sig .tc .vmem S1x128 .f32) (harg4 : arg4.IsWhole) (arg5 : Memref sig .tc .vmem S100x1 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S16x8 .f32) (harg8 : arg8.IsWhole) (arg9 : Memref sig .tc .vmem S1x8 .f32) (harg9 : arg9.IsWhole) (arg10 : Memref sig .tc .vmem S8x1 .f32) (harg10 : arg10.IsWhole) (arg11 : Memref sig .tc .vmem S1x1 .f32) (harg11 : arg11.IsWhole) (arg12 : Memref sig .tc .vmem S100x1 .f32) (harg12 : arg12.IsWhole) (arg13 : Memref sig .tc .vmem S100x128 .f32) (harg13 : arg13.IsWhole) (hc0 : ¬cond0_0 i) (hc1 : cond0_1 i) (x0 : Vec F S5000x128 .f32) (x1 : Vec F S5000x1 .f32) (x2 : Vec F S5000x1 .i32) (x3 : Vec F S1x128 .f32) (x4 : Vec F S100x1 .f32) (x5 : Vec F S128x16 .f32) (x6 : Vec F S1x16 .f32) (x7 : Vec F S16x8 .f32) (x8 : Vec F S1x8 .f32) (x9 : Vec F S8x1 .f32) (x10 : Vec F S1x1 .f32) (xs0 : Vec F S100x128 .f32) :
    out0_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0
      = k0_pay3 x4 (k0_pay2 x0 x1 x3 x2 xs0) x5 x6 x7 x8 x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread,
    harg8.read_unread, harg9.read_unread, harg10.read_unread, harg11.read_unread, harg13.read_unread, View.ld_unit_zero (S := S5000x128) hz, View.ld_unit_zero (S := S5000x1) hz, View.ld_unit_zero (S := S1x128) hz,
    View.ld_unit_zero (S := S100x1) hz, View.ld_unit_zero (S := S128x16) hz, View.ld_unit_zero (S := S1x16) hz, View.ld_unit_zero (S := S16x8) hz, View.ld_unit_zero (S := S1x8) hz, View.ld_unit_zero (S := S8x1) hz, View.ld_unit_zero (S := S1x1) hz, View.ld_unit_zero (S := S100x128) hz,
    View.readCov_unit_zero (S := S100x128) _ hz]

end Cert.KernelIdeal.Pieces

end
-- ==== Proof.KernelBlocks.lean ====
/-
  Each window's block at a grid point, read in the array the kernel region finds.

  The grid has 20 points.  The three row-wise inputs, of 100000 rows each, are cut into 20 runs of 5000 consecutive
  rows: at point t the block's row k is the array's row 5000 t + k, the columns unchanged.  Every other input is taken
  whole at every point: its block index is (0, 0) and the block has the array's own shape, so the block is the array.
  A block's coordinate on an axis is always the block index times the block's extent plus the coordinate inside the
  block; the block indices are decided once over the 20 points.
-/
import proofs.«419579_j69784628626008_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F] (m : (ℓ : Loc nD τ sig) → Buf (Elt F) ℓ)

/-- Row k of the block at point t is a row of the array: 20 runs of 5000 rows make 100000. -/
theorem rows_lt (t : Fin cfg0.N) (k : Fin 5000) : 5000 * t.val + k.val < 100000 := by
  have ht : t.val < 20 := lt_of_lt_of_eq t.isLt (show cfg0.N = 20 from N_0)
  have hk := k.isLt
  omega

/-! ## The block indices, decided over the grid -/

/-- Window 0's block index at point t is (t, 0). -/
theorem index0 : ∀ t : Fin cfg0.N, win0_0.index t (0 : Fin 2) = t.val ∧ win0_0.index t (1 : Fin 2) = 0 :=
  (by decide +kernel : ∀ t : Fin grid0.N, _)

/-- Window 1's block index at point t is (t, 0). -/
theorem index1 : ∀ t : Fin cfg0.N, win0_1.index t (0 : Fin 2) = t.val ∧ win0_1.index t (1 : Fin 2) = 0 :=
  (by decide +kernel : ∀ t : Fin grid0.N, _)

/-- Window 2's block index at point t is (t, 0). -/
theorem index2 : ∀ t : Fin cfg0.N, win0_2.index t (0 : Fin 2) = t.val ∧ win0_2.index t (1 : Fin 2) = 0 :=
  (by decide +kernel : ∀ t : Fin grid0.N, _)

/-- Window 3's block index is (0, 0) at every point. -/
theorem index3 : ∀ t : Fin cfg0.N, win0_3.index t (0 : Fin 2) = 0 ∧ win0_3.index t (1 : Fin 2) = 0 :=
  (by decide +kernel : ∀ t : Fin grid0.N, _)

/-- Window 4's block index is (0, 0) at every point. -/
theorem index4 : ∀ t : Fin cfg0.N, win0_4.index t (0 : Fin 2) = 0 ∧ win0_4.index t (1 : Fin 2) = 0 :=
  (by decide +kernel : ∀ t : Fin grid0.N, _)

/-- Window 5's block index is (0, 0) at every point. -/
theorem index5 : ∀ t : Fin cfg0.N, win0_5.index t (0 : Fin 2) = 0 ∧ win0_5.index t (1 : Fin 2) = 0 :=
  (by decide +kernel : ∀ t : Fin grid0.N, _)

/-- Window 6's block index is (0, 0) at every point. -/
theorem index6 : ∀ t : Fin cfg0.N, win0_6.index t (0 : Fin 2) = 0 ∧ win0_6.index t (1 : Fin 2) = 0 :=
  (by decide +kernel : ∀ t : Fin grid0.N, _)

/-- Window 7's block index is (0, 0) at every point. -/
theorem index7 : ∀ t : Fin cfg0.N, win0_7.index t (0 : Fin 2) = 0 ∧ win0_7.index t (1 : Fin 2) = 0 :=
  (by decide +kernel : ∀ t : Fin grid0.N, _)

/-- Window 8's block index is (0, 0) at every point. -/
theorem index8 : ∀ t : Fin cfg0.N, win0_8.index t (0 : Fin 2) = 0 ∧ win0_8.index t (1 : Fin 2) = 0 :=
  (by decide +kernel : ∀ t : Fin grid0.N, _)

/-- Window 9's block index is (0, 0) at every point. -/
theorem index9 : ∀ t : Fin cfg0.N, win0_9.index t (0 : Fin 2) = 0 ∧ win0_9.index t (1 : Fin 2) = 0 :=
  (by decide +kernel : ∀ t : Fin grid0.N, _)

/-- Window 10's block index is (0, 0) at every point. -/
theorem index10 : ∀ t : Fin cfg0.N, win0_10.index t (0 : Fin 2) = 0 ∧ win0_10.index t (1 : Fin 2) = 0 :=
  (by decide +kernel : ∀ t : Fin grid0.N, _)

/-! ## The row-wise inputs: runs of 5000 rows -/

/-- Window 0: row k, column d of the block at point t is row 5000 t + k, column d of the array. -/
theorem blk0 (c : Dev nD) (t : Fin cfg0.N) (k : Fin 5000) (d : Fin 128) :
    (iblk m c 0 t : Vec F S5000x128 .f32) (ix2 k d)
      = (V m c main_v34 : Vec F S100000x128 .f32) (ix2 ⟨5000 * t.val + k.val, rows_lt t k⟩ d) := by
  unfold iblk
  rw [View.read_apply]
  show V m c main_v34 _ = V m c main_v34 _
  congr 1
  funext a
  apply Fin.ext
  match a with
  | ⟨0, _⟩ => show win0_0.index t 0 * 5000 + 1 * k.val = 5000 * t.val + k.val; rw [(index0 t).1]; omega
  | ⟨1, _⟩ => show win0_0.index t 1 * 128 + 1 * d.val = d.val; rw [(index0 t).2]; omega

/-- Window 1: row k of the block at point t is row 5000 t + k of the array. -/
theorem blk1 (c : Dev nD) (t : Fin cfg0.N) (k : Fin 5000) :
    (iblk m c 1 t : Vec F S5000x1 .f32) (ix2 k ⟨0, Nat.one_pos⟩)
      = (V m c main_v13 : Vec F S100000x1 .f32) (ix2 ⟨5000 * t.val + k.val, rows_lt t k⟩ ⟨0, Nat.one_pos⟩) := by
  unfold iblk
  rw [View.read_apply]
  show V m c main_v13 _ = V m c main_v13 _
  congr 1
  funext a
  apply Fin.ext
  match a with
  | ⟨0, _⟩ => show win0_1.index t 0 * 5000 + 1 * k.val = 5000 * t.val + k.val; rw [(index1 t).1]; omega
  | ⟨1, _⟩ => show win0_1.index t 1 * 1 + 1 * 0 = 0; rw [(index1 t).2]

/-- Window 2: row k of the block at point t is row 5000 t + k of the array. -/
theorem blk2 (c : Dev nD) (t : Fin cfg0.N) (k : Fin 5000) :
    (iblk m c 2 t : Vec F S5000x1 .i32) (ix2 k ⟨0, Nat.one_pos⟩)
      = (V m c main_v42 : Vec F S100000x1 .i32) (ix2 ⟨5000 * t.val + k.val, rows_lt t k⟩ ⟨0, Nat.one_pos⟩) := by
  unfold iblk
  rw [View.read_apply]
  show V m c main_v42 _ = V m c main_v42 _
  congr 1
  funext a
  apply Fin.ext
  match a with
  | ⟨0, _⟩ => show win0_2.index t 0 * 5000 + 1 * k.val = 5000 * t.val + k.val; rw [(index2 t).1]; omega
  | ⟨1, _⟩ => show win0_2.index t 1 * 1 + 1 * 0 = 0; rw [(index2 t).2]

/-! ## The inputs taken whole -/

/-- Window 3 (the bias row of the per-row transformation): the block at every point is the whole array. -/
theorem blk3 (c : Dev nD) (t : Fin cfg0.N) : (iblk m c 3 t : Vec F S1x128 .f32) = V m c main_v43 := by
  funext j
  unfold iblk
  rw [View.read_apply]
  show V m c main_v43 _ = V m c main_v43 j
  congr 1
  funext a
  apply Fin.ext
  match a with
  | ⟨0, _⟩ => show win0_3.index t 0 * 1 + 1 * (j 0).val = (j 0).val; rw [(index3 t).1]; omega
  | ⟨1, _⟩ => show win0_3.index t 1 * 128 + 1 * (j 1).val = (j 1).val; rw [(index3 t).2]; omega

/-- Window 4 (the per-group divisor column): the block at every point is the whole array. -/
theorem blk4 (c : Dev nD) (t : Fin cfg0.N) : (iblk m c 4 t : Vec F S100x1 .f32) = V m c main_v41 := by
  funext j
  unfold iblk
  rw [View.read_apply]
  show V m c main_v41 _ = V m c main_v41 j
  congr 1
  funext a
  apply Fin.ext
  match a with
  | ⟨0, _⟩ => show win0_4.index t 0 * 100 + 1 * (j 0).val = (j 0).val; rw [(index4 t).1]; omega
  | ⟨1, _⟩ => show win0_4.index t 1 * 1 + 1 * (j 1).val = (j 1).val; rw [(index4 t).2]; omega

/-- Window 5 (the first dense layer's weights): the block at every point is the whole array. -/
theorem blk5 (c : Dev nD) (t : Fin cfg0.N) : (iblk m c 5 t : Vec F S128x16 .f32) = V m c main_arg8 := by
  funext j
  unfold iblk
  rw [View.read_apply]
  show V m c main_arg8 _ = V m c main_arg8 j
  congr 1
  funext a
  apply Fin.ext
  match a with
  | ⟨0, _⟩ => show win0_5.index t 0 * 128 + 1 * (j 0).val = (j 0).val; rw [(index5 t).1]; omega
  | ⟨1, _⟩ => show win0_5.index t 1 * 16 + 1 * (j 1).val = (j 1).val; rw [(index5 t).2]; omega

/-- Window 6 (the first dense layer's bias row): the block at every point is the whole array. -/
theorem blk6 (c : Dev nD) (t : Fin cfg0.N) : (iblk m c 6 t : Vec F S1x16 .f32) = V m c main_v44 := by
  funext j
  unfold iblk
  rw [View.read_apply]
  show V m c main_v44 _ = V m c main_v44 j
  congr 1
  funext a
  apply Fin.ext
  match a with
  | ⟨0, _⟩ => show win0_6.index t 0 * 1 + 1 * (j 0).val = (j 0).val; rw [(index6 t).1]; omega
  | ⟨1, _⟩ => show win0_6.index t 1 * 16 + 1 * (j 1).val = (j 1).val; rw [(index6 t).2]; omega

/-- Window 7 (the second dense layer's weights): the block at every point is the whole array. -/
theorem blk7 (c : Dev nD) (t : Fin cfg0.N) : (iblk m c 7 t : Vec F S16x8 .f32) = V m c main_arg10 := by
  funext j
  unfold iblk
  rw [View.read_apply]
  show V m c main_arg10 _ = V m c main_arg10 j
  congr 1
  funext a
  apply Fin.ext
  match a with
  | ⟨0, _⟩ => show win0_7.index t 0 * 16 + 1 * (j 0).val = (j 0).val; rw [(index7 t).1]; omega
  | ⟨1, _⟩ => show win0_7.index t 1 * 8 + 1 * (j 1).val = (j 1).val; rw [(index7 t).2]; omega

/-- Window 8 (the second dense layer's bias row): the block at every point is the whole array. -/
theorem blk8 (c : Dev nD) (t : Fin cfg0.N) : (iblk m c 8 t : Vec F S1x8 .f32) = V m c main_v45 := by
  funext j
  unfold iblk
  rw [View.read_apply]
  show V m c main_v45 _ = V m c main_v45 j
  congr 1
  funext a
  apply Fin.ext
  match a with
  | ⟨0, _⟩ => show win0_8.index t 0 * 1 + 1 * (j 0).val = (j 0).val; rw [(index8 t).1]; omega
  | ⟨1, _⟩ => show win0_8.index t 1 * 8 + 1 * (j 1).val = (j 1).val; rw [(index8 t).2]; omega

/-- Window 9 (the third dense layer's weights): the block at every point is the whole array. -/
theorem blk9 (c : Dev nD) (t : Fin cfg0.N) : (iblk m c 9 t : Vec F S8x1 .f32) = V m c main_arg12 := by
  funext j
  unfold iblk
  rw [View.read_apply]
  show V m c main_arg12 _ = V m c main_arg12 j
  congr 1
  funext a
  apply Fin.ext
  match a with
  | ⟨0, _⟩ => show win0_9.index t 0 * 8 + 1 * (j 0).val = (j 0).val; rw [(index9 t).1]; omega
  | ⟨1, _⟩ => show win0_9.index t 1 * 1 + 1 * (j 1).val = (j 1).val; rw [(index9 t).2]; omega

/-- Window 10 (the third dense layer's bias): the block at every point is the whole array. -/
theorem blk10 (c : Dev nD) (t : Fin cfg0.N) : (iblk m c 10 t : Vec F S1x1 .f32) = V m c main_v46 := by
  funext j
  unfold iblk
  rw [View.read_apply]
  show V m c main_v46 _ = V m c main_v46 j
  congr 1
  funext a
  apply Fin.ext
  match a with
  | ⟨0, _⟩ => show win0_10.index t 0 * 1 + 1 * (j 0).val = (j 0).val; rw [(index10 t).1]; omega
  | ⟨1, _⟩ => show win0_10.index t 1 * 1 + 1 * (j 1).val = (j 1).val; rw [(index10 t).2]; omega

end Cert.KernelIdeal.Blocks

end
-- ==== Proof.KernelFinal.lean ====
/-
  The kernel program's result array after the run.

  The grid has 20 points and the output block is written back once, after the last point (point 19); its block is the
  whole [100, 1] result array.  What the body leaves in the output block there is the dense network's payload on the
  count column, on the accumulator as the last point leaves it, and on the dense layers' arrays, each of which the
  body reads whole.  So the result array ends at that payload, and the run leaves the arguments as they were.
-/
import proofs.«419579_j69784628626008_2_alg».proof.Proof.Gen.KernelIdeal.Value
import proofs.«419579_j69784628626008_2_alg».proof.Proof.KernelPieces
import proofs.«419579_j69784628626008_2_alg».proof.Proof.KernelBlocks
import Idealize.ShloMosaic.Lib.Pipeline.Value

noncomputable section

open Idealize.ShloMosaic Idealize.ShloMosaic.TcCoe Idealize.SL.Sem
open Idealize.ShloMosaic.Pipeline (Dat)

namespace Cert.KernelIdeal.Final

open Cert.KernelIdeal Cert.KernelIdeal.Gen

variable {F : FTy → Type} [FloatOps F]
variable (m : (ℓ : Loc nD τ sig) → Buf (Elt F) ℓ) (ρ : Dev nD → PrngReg)

/-- The grid has a point 19: it has 20 points. -/
theorem h19 : 19 < cfg0.N := lt_of_lt_of_eq (by decide) (show cfg0.N = 20 from N_0).symm
/-- And a point 18. -/
theorem h18 : 18 < cfg0.N := lt_of_lt_of_eq (by decide) (show cfg0.N = 20 from N_0).symm

/-- The last point of the grid. -/
abbrev t19 : Fin cfg0.N := ⟨19, h19⟩

/-- The last point is not a first point of a sweep … -/
theorem h0_19 : ¬t19.val % 20 = 0 := by decide
/-- … and is its last. -/
theorem h1_19 : t19.val % 20 = 19 := by decide

/-- The accumulator after the last point: the last point's contribution added to what point 18 left. -/
theorem acc19 (c : Dev nD) :
    (outsAt0 m c 19 h19).2
      = k0_pay2 (iblk m c 0 t19) (iblk m c 1 t19) (iblk m c 3 t19) (iblk m c 2 t19) (outsAt0 m c 18 h18).2 := by
  show (outsAt0 m c t19.val t19.isLt).2 = _
  rw [outsAt0_C m c t19 h0_19 h1_19]
  dsimp only
  exact Pieces.scratch_C (F := F) c (grid0.coords t19) (ms0_0 t19) (hs0_0 t19) (ms0_1 t19) (hs0_1 t19) (ms0_2 t19) (hs0_2 t19) (ms0_3 t19) (hs0_3 t19) (ms0_4 t19) (hs0_4 t19) (ms0_5 t19) (hs0_5 t19) (ms0_6 t19) (hs0_6 t19) (ms0_7 t19) (hs0_7 t19) (ms0_8 t19) (hs0_8 t19) (ms0_9 t19) (hs0_9 t19) (ms0_10 t19) (hs0_10 t19) (ms0_11 t19) (hs0_11 t19) scM0_0 (Memref.isWhole_whole cc0_scratch0) (fun h => h0_19 ((hcond0_0 t19).mp h)) ((hcond0_1 t19).mpr h1_19) (iblk m c 0 t19) (iblk m c 1 t19) (iblk m c 2 t19) (iblk m c 3 t19) (iblk m c 4 t19) (iblk m c 5 t19) (iblk m c 6 t19) (iblk m c 7 t19) (iblk m c 8 t19) (iblk m c 9 t19) (iblk m c 10 t19) (outsAt0 m c (t19.val - 1) (Nat.lt_of_le_of_lt (Nat.sub_le _ _) t19.isLt)).2

/-- What the last point leaves in the output block: the dense network's payload on the count column, the accumulator
    after the last point and the dense layers' arrays — each of those blocks is its whole array. -/
theorem out19 (c : Dev nD) :
    out0_C_11 c (grid0.coords t19) (ms0_0 t19) (hs0_0 t19) (ms0_1 t19) (hs0_1 t19) (ms0_2 t19) (hs0_2 t19) (ms0_3 t19) (hs0_3 t19) (ms0_4 t19) (hs0_4 t19) (ms0_5 t19) (hs0_5 t19) (ms0_6 t19) (hs0_6 t19) (ms0_7 t19) (hs0_7 t19) (ms0_8 t19) (hs0_8 t19) (ms0_9 t19) (hs0_9 t19) (ms0_10 t19) (hs0_10 t19) (ms0_11 t19) (hs0_11 t19) scM0_0 (Memref.isWhole_whole cc0_scratch0) (fun h => h0_19 ((hcond0_0 t19).mp h)) ((hcond0_1 t19).mpr h1_19) (iblk m c 0 t19) (iblk m c 1 t19) (iblk m c 2 t19) (iblk m c 3 t19) (iblk m c 4 t19) (iblk m c 5 t19) (iblk m c 6 t19) (iblk m c 7 t19) (iblk m c 8 t19) (iblk m c 9 t19) (iblk m c 10 t19) (outsAt0 m c (t19.val - 1) (Nat.lt_of_le_of_lt (Nat.sub_le _ _) t19.isLt)).2
      = k0_pay3 (V m c main_v41) ((outsAt0 m c 19 h19).2) (V m c main_arg8) (V m c main_v44) (V m c main_arg10) (V m c main_v45) (V m c main_arg12) (V m c main_v46) := by
  refine (Pieces.out_C (F := F) c (grid0.coords t19) (ms0_0 t19) (hs0_0 t19) (ms0_1 t19) (hs0_1 t19) (ms0_2 t19) (hs0_2 t19) (ms0_3 t19) (hs0_3 t19) (ms0_4 t19) (hs0_4 t19) (ms0_5 t19) (hs0_5 t19) (ms0_6 t19) (hs0_6 t19) (ms0_7 t19) (hs0_7 t19) (ms0_8 t19) (hs0_8 t19) (ms0_9 t19) (hs0_9 t19) (ms0_10 t19) (hs0_10 t19) (ms0_11 t19) (hs0_11 t19) scM0_0 (Memref.isWhole_whole cc0_scratch0) (fun h => h0_19 ((hcond0_0 t19).mp h)) ((hcond0_1 t19).mpr h1_19) (iblk m c 0 t19) (iblk m c 1 t19) (iblk m c 2 t19) (iblk m c 3 t19) (iblk m c 4 t19) (iblk m c 5 t19) (iblk m c 6 t19) (iblk m c 7 t19) (iblk m c 8 t19) (iblk m c 9 t19) (iblk m c 10 t19) (outsAt0 m c (t19.val - 1) (Nat.lt_of_le_of_lt (Nat.sub_le _ _) t19.isLt)).2).trans ?_
  rw [acc19 m c, Blocks.blk4 m c t19, Blocks.blk5 m c t19, Blocks.blk6 m c t19, Blocks.blk7 m c t19,
    Blocks.blk8 m c t19, Blocks.blk9 m c t19, Blocks.blk10 m c t19]
  rfl

/-- The output window's block index at the last point is (0, 0): its offsets in the result array are zero. -/
theorem offsets19 : (fun a => win0_11.index t19 a * main_v47.ty.shape.size a) = fun _ => 0 :=
  funext fun a => by fin_cases a <;> decide +kernel

/-- The one write-back, after the last point, writes that payload: block (0, 0) of the [100, 1] array, of the array's
    own shape, read at zero offsets is the array. -/
theorem flushed_eq (c : Dev nD) (t : Fin cfg0.N) (hf : (cfg0.win 11).flush t = true) :
    (dats m 0 c).flushed 11 t = ((cfg0.win 11).blk t).view.read (Elt F) (k0_pay3 (V m c main_v41) ((outsAt0 m c 19 h19).2) (V m c main_arg8) (V m c main_v44) (V m c main_arg10) (V m c main_v45) (V m c main_arg12) (V m c main_v46)) := by
  have hN : cfg0.N = 20 := N_0
  have ht : t.val = 19 := by have := (flush0_11 t).mp hf; have := t.isLt; omega
  obtain rfl : t = t19 := Fin.ext ht
  rw [Value.flushed11_C m c t19 h0_19 h1_19, out19 m c]
  exact (Memref.read_access_unit_zero (Elt F) main_v47 offsets19 (fun a => by rw [congrFun offsets19 a]; simp)
    (k0_pay3 (V m c main_v41) ((outsAt0 m c 19 h19).2) (V m c main_arg8) (V m c main_v44) (V m c main_arg10) (V m c main_v45) (V m c main_arg12) (V m c main_v46))).symm

/-- Every index of the result array lies in the block written back after the last point. -/
theorem cover (i : S100x1.Idx) : ∃ t : Fin cfg0.N, (cfg0.win 11).flush t = true ∧ i ∈ ((cfg0.win 11).blk t).view.set :=
  ⟨t19, (flush0_11 t19).mpr h1_19, by
    show i ∈ ((View.whole main_v47).slice (win0_11.rect t19)).set
    rw [View.set_slice_whole, Rect.mem_set_unit]
    intro a
    have hr : (i 0 : Nat) < 100 := (i 0).isLt
    have hc : (i 1 : Nat) < 1 := (i 1).isLt
    match a with
    | ⟨0, _⟩ =>
      show win0_11.index t19 0 * win0_11.size 0 ≤ (i 0 : Nat) ∧
        (i 0 : Nat) < win0_11.index t19 0 * win0_11.size 0 + win0_11.xsize (grid0.coords t19) 0
      rw [show win0_11.index t19 0 * win0_11.size 0 = 0 from by decide +kernel,
        show win0_11.xsize (grid0.coords t19) 0 = 100 from by decide +kernel]
      omega
    | ⟨1, _⟩ =>
      show win0_11.index t19 1 * win0_11.size 1 ≤ (i 1 : Nat) ∧
        (i 1 : Nat) < win0_11.index t19 1 * win0_11.size 1 + win0_11.xsize (grid0.coords t19) 1
      rw [show win0_11.index t19 1 * win0_11.size 1 = 0 from by decide +kernel,
        show win0_11.xsize (grid0.coords t19) 1 = 1 from by decide +kernel]
      omega⟩

/-- The result array ends at the readout payload of the count column, the accumulator after the last point, and the
    dense layers' arrays. -/
theorem final_out (c : Dev nD) : (dats m 0 c).arrAt 11 cfg0.N
    = k0_pay3 (V m c main_v41) ((outsAt0 m c 19 h19).2) (V m c main_arg8) (V m c main_v44) (V m c main_arg10) (V m c main_v45) (V m c main_arg12) (V m c main_v46) :=
  (dats m 0 c).arrAt_eq_of_cover 11 (k0_pay3 (V m c main_v41) ((outsAt0 m c 19 h19).2) (V m c main_arg8) (V m c main_v44) (V m c main_arg10) (V m c main_v45) (V m c main_arg12) (V m c main_v46)) (flushed_eq m c) cover

/-- The run: the result array at that payload, the arguments unchanged. -/
theorem run_out : θ_run defs (onTc (τ := τ) (main (F := F))) ⟨m, fun _ => 0, ρ⟩ fun r => ∀ c : Dev nD,
      r.2.mem ((c : Thread nD τ).loc main_v47) = k0_pay3 (V m c main_v41) ((outsAt0 m c 19 h19).2) (V m c main_arg8) (V m c main_v44) (V m c main_arg10) (V m c main_v45) (V m c main_arg12) (V m c main_v46)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final_out m c), (h c).2⟩) (Value.run_blocks m ρ)

end Cert.KernelIdeal.Final

end
-- ==== Proof.PoolPayload.lean ====
/-
  The accumulate payload of the pooling kernel's body, read at one element, at the ideal values.

  The body forms, from a block of 5000 rows, the one-hot matrix `H[k, g] = 1` if row `k`'s label is `g` else `0`
  (compare with the class index, widen, convert) and the rectified rows `Y[k, d] = max(a[k, d] · r[k, 0] + b[0, d], 0)`,
  and adds the product `Hᵀ Y` (a contraction over the 5000 rows of both factors) to the accumulator. At `(g, d)`:
  `acc[g, d] + ∑ k, H[k, g] · Y[k, d]`.
-/
import proofs.«419579_j69784628626008_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pool

open Cert.KernelIdeal Cert.KernelIdeal.Gen Idealize.ShloMosaic Idealize.ShloMosaic.ValueIdx

/-! ## The label word and the class index -/

/-- A 32-bit word is the word of a class index `g < 100` exactly when its signed value is `g`. -/
theorem word_eq_iff (w : BitVec 32) (g : Fin 100) : w = BitVec.ofNat 32 g.val ↔ w.toInt = (g.val : Int) := by
  have hg := g.isLt
  have hw := w.isLt
  rw [BitVec.toInt_eq_toNat_cond, ← BitVec.toNat_inj, BitVec.toNat_ofNat]
  constructor
  · intro h; rw [h]; split <;> omega
  · intro h; split at h <;> omega

/-- 1 where the label word is g's word, else 0: the compare, widen, convert chain on one element. -/
theorem onehot_entry (w : BitVec 32) (g : Fin 100) :
    (FloatOps.sitofp (F := Ideal) .f32 ((IntOp.cmpi .eq w (BitVec.ofNat 32 g.val)).setWidth 32) : EReal)
      = if w.toInt = (g.val : Int) then 1 else 0 := by
  show (((((IntOp.cmpi .eq w (BitVec.ofNat 32 g.val)).setWidth 32).toInt : ℝ)) : EReal) = _
  by_cases h : w = BitVec.ofNat 32 g.val
  · rw [if_pos ((word_eq_iff w g).mp h)]
    have hc : IntOp.cmpi .eq w (BitVec.ofNat 32 g.val) = 1#1 := by
      unfold IntOp.cmpi; rw [h]; simp
    rw [hc]
    have : ((1#1 : BitVec 1).setWidth 32).toInt = 1 := by decide
    rw [this]; norm_num
  · rw [if_neg (fun h' => h ((word_eq_iff w g).mpr h'))]
    have hc : IntOp.cmpi .eq w (BitVec.ofNat 32 g.val) = 0#1 := by
      unfold IntOp.cmpi
      show BitVec.ofBool (w == BitVec.ofNat 32 g.val) = 0#1
      rw [beq_eq_false_iff_ne.mpr h]; rfl
    rw [hc]
    have : ((0#1 : BitVec 1).setWidth 32).toInt = 0 := by decide
    rw [this]; norm_num

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p ⟨0, Nat.one_pos⟩) := by
  refine broadcastTo_apply v h (ix2 p c) (ix2 p ⟨0, Nat.one_pos⟩) fun ax => ?_
  match ax with
  | ⟨0, _⟩ =>
    show p.val = if a = 1 then 0 else p.val
    split
    · have := p.isLt; omega
    · rfl
  | ⟨1, _⟩ => rfl

/-! ## The matrix product's operand indices: the contraction runs over the rows of both operands -/

theorem lhs_pool_0 (i : S100x128.Idx) (q : dot_S5000x100_S5000x128_S100x128_0_0_1_1_n_n.contr.Idx) :
    (dot_S5000x100_S5000x128_S100x128_0_0_1_1_n_n.lhsIdx i q 0).val = (q ⟨0, by decide⟩).val :=
  dot_S5000x100_S5000x128_S100x128_0_0_1_1_n_n.lhsIdx_val_of_single rfl i q
theorem lhs_pool_1 (i : S100x128.Idx) (q : dot_S5000x100_S5000x128_S100x128_0_0_1_1_n_n.contr.Idx) :
    (dot_S5000x100_S5000x128_S100x128_0_0_1_1_n_n.lhsIdx i q 1).val = (i 0).val := by
  unfold DotDims.lhsIdx
  rw [dif_neg (show ¬(1 : Fin S5000x100.rank) ∈ dot_S5000x100_S5000x128_S100x128_0_0_1_1_n_n.lhsBatch by decide), dif_pos (show (1 : Fin S5000x100.rank) ∈ dot_S5000x100_S5000x128_S100x128_0_0_1_1_n_n.lhsNonContracting by decide)]
  rfl
theorem rhs_pool_0 (i : S100x128.Idx) (q : dot_S5000x100_S5000x128_S100x128_0_0_1_1_n_n.contr.Idx) :
    (dot_S5000x100_S5000x128_S100x128_0_0_1_1_n_n.rhsIdx i q 0).val = (q ⟨0, by decide⟩).val :=
  dot_S5000x100_S5000x128_S100x128_0_0_1_1_n_n.rhsIdx_val_of_single rfl i q
theorem rhs_pool_1 (i : S100x128.Idx) (q : dot_S5000x100_S5000x128_S100x128_0_0_1_1_n_n.contr.Idx) :
    (dot_S5000x100_S5000x128_S100x128_0_0_1_1_n_n.rhsIdx i q 1).val = (i 1).val := by
  unfold DotDims.rhsIdx
  rw [dif_neg (show ¬(1 : Fin S5000x128.rank) ∈ dot_S5000x100_S5000x128_S100x128_0_0_1_1_n_n.rhsBatch by decide), dif_pos (show (1 : Fin S5000x128.rank) ∈ dot_S5000x100_S5000x128_S100x128_0_0_1_1_n_n.rhsNonContracting by decide)]
  rfl

/-! ## The payload at an element -/

/-- THE PAYLOAD AT (g, d): the accumulator's element plus the sum over the block's 5000 rows k of (1 if row k's label
    is g else 0) times max(a[k,d]·r[k,0] + b[0,d], 0). -/
theorem pay2_apply (a : Vec Ideal S5000x128 .f32) (r : Vec Ideal S5000x1 .f32) (b : Vec Ideal S1x128 .f32)
    (l : Vec Ideal S5000x1 .i32) (acc : Vec Ideal S100x128 .f32) (g : Fin 100) (d : Fin 128) :
    k0_pay2 (F := Ideal) a r b l acc (ix2 g d)
      = acc (ix2 g d) + ∑ k : Fin 5000,
          (if (l (ix2 k ⟨0, Nat.one_pos⟩)).toInt = (g.val : Int) then (1 : EReal) else 0)
            * max (a (ix2 k d) * r (ix2 k ⟨0, Nat.one_pos⟩) + b (ix2 ⟨0, Nat.one_pos⟩ d)) 0 := by
  unfold k0_pay2
  refine (congrFun (shapeCast_self _ shapeCasts_S100x128_S100x128) (ix2 g d)).trans ?_
  refine (addf_apply _ _ _).trans ?_
  refine congrArg (acc (ix2 g d) + ·) ?_
  refine (Ideal.matmul_constant_zero_apply dot_S5000x100_S5000x128_S100x128_0_0_1_1_n_n none _ _ (ix2 g d)).trans ?_
  rw [← Equiv.sum_comp (contrEquiv1 dot_S5000x100_S5000x128_S100x128_0_0_1_1_n_n 5000 rfl rfl).symm]
  refine Finset.sum_congr rfl fun k _ => ?_
  have hk := contrEquiv1_symm_val dot_S5000x100_S5000x128_S100x128_0_0_1_1_n_n 5000 rfl rfl k
  have el : dot_S5000x100_S5000x128_S100x128_0_0_1_1_n_n.lhsIdx (ix2 g d) ((contrEquiv1 dot_S5000x100_S5000x128_S100x128_0_0_1_1_n_n 5000 rfl rfl).symm k) = ix2 k g := funext fun ax => Fin.ext (by
    match ax with
    | ⟨0, _⟩ => exact (lhs_pool_0 _ _).trans hk
    | ⟨1, _⟩ => exact lhs_pool_1 _ _)
  have er : dot_S5000x100_S5000x128_S100x128_0_0_1_1_n_n.rhsIdx (ix2 g d) ((contrEquiv1 dot_S5000x100_S5000x128_S100x128_0_0_1_1_n_n 5000 rfl rfl).symm k) = ix2 k d := funext fun ax => Fin.ext (by
    match ax with
    | ⟨0, _⟩ => exact (rhs_pool_0 _ _).trans hk
    | ⟨1, _⟩ => exact rhs_pool_1 _ _)
  rw [el, er]
  have h1 : broadcastTo S5000x100 (shapeCast S5000x1 l shapeCasts_S5000x1_S5000x1) broadcasts_S5000x1_S5000x100 (ix2 k g)
      = l (ix2 k ⟨0, Nat.one_pos⟩) := by
    rw [shapeCast_self]; exact broadcastTo_a1_ab_apply l _ k g
  have h2 : iota Kind.tc S5000x100 32 [1] iota_S5000x100_d1_w32 (ix2 k g) = BitVec.ofNat 32 g.val :=
    iota_single_apply .tc S5000x100 32 1 iota_S5000x100_d1_w32 (ix2 k g)
  have h3 : broadcastTo S5000x128 (shapeCast S5000x1 r shapeCasts_S5000x1_S5000x1) broadcasts_S5000x1_S5000x128 (ix2 k d)
      = r (ix2 k ⟨0, Nat.one_pos⟩) := by
    rw [shapeCast_self]; exact broadcastTo_a1_ab_apply r _ k d
  have h4 : broadcastTo S5000x128 (shapeCast S1x128 b shapeCasts_S1x128_S1x128) broadcasts_S1x128_S5000x128 (ix2 k d)
      = b (ix2 ⟨0, Nat.one_pos⟩ d) := by
    rw [shapeCast_self]; exact broadcastTo_1b_ab_apply b _ k d
  have h5 : shapeCast S5000x128 a shapeCasts_S5000x128_S5000x128 (ix2 k d) = a (ix2 k d) := by
    rw [shapeCast_self]
  congr 1
  · show FloatOps.sitofp (F := Ideal) .f32 ((IntOp.cmpi .eq
        (broadcastTo S5000x100 (shapeCast S5000x1 l shapeCasts_S5000x1_S5000x1) broadcasts_S5000x1_S5000x100 (ix2 k g))
        (iota Kind.tc S5000x100 32 [1] iota_S5000x100_d1_w32 (ix2 k g))).setWidth 32) = _
    rw [h1, h2]
    exact onehot_entry _ g
  · show max (shapeCast S5000x128 a shapeCasts_S5000x128_S5000x128 (ix2 k d)
        * broadcastTo S5000x128 (shapeCast S5000x1 r shapeCasts_S5000x1_S5000x1) broadcasts_S5000x1_S5000x128 (ix2 k d)
        + broadcastTo S5000x128 (shapeCast S1x128 b shapeCasts_S1x128_S1x128) broadcasts_S1x128_S5000x128 (ix2 k d))
        (Ideal.ofBits .f32 0x00000000#32) = _
    rw [h3, h4, h5, Ideal.ofBits_zero_f32]

end Cert.KernelIdeal.Pool

end
-- ==== Proof.KernelFold.lean ====
/-
  The carried accumulator of the pooling kernel, after each grid point, at the ideal values.

  The grid has 20 points; point `s` loads tile `s` (5000 rows) of the inputs. The body resets the accumulator to the
  zero block at point 0 and at every point adds the tile's partial sum: at `(g, d)`, the sum over the tile's rows `k`
  of (1 if row `k`'s label is `g` else 0) · max(a[k, d] · r[k, 0] + b[0, d], 0). Hence after point `n` the accumulator at
  `(g, d)` is the sum of the partial sums of tiles `0 … n`.
-/
import proofs.«419579_j69784628626008_2_alg».proof.Proof.Gen.KernelIdeal.Value
import proofs.«419579_j69784628626008_2_alg».proof.Proof.KernelPieces
import proofs.«419579_j69784628626008_2_alg».proof.Proof.PoolPayload
import Idealize.ShloMosaic.Lib.Pipeline.Value

noncomputable section

open scoped BigOperators

namespace Cert.KernelIdeal.Fold

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The four input blocks the accumulating body reads at a grid point, each at its literal type: the rows `a`
    ([5000, 128]), the row scales `r` ([5000, 1]), the row labels `l` ([5000, 1], integers) and the bias `b` ([1, 128]). -/
abbrev ablk (c : Dev nD) (t : Fin cfg0.N) : Vec Ideal S5000x128 .f32 := iblk m c 0 t
abbrev rblk (c : Dev nD) (t : Fin cfg0.N) : Vec Ideal S5000x1 .f32 := iblk m c 1 t
abbrev lblk (c : Dev nD) (t : Fin cfg0.N) : Vec Ideal S5000x1 .i32 := iblk m c 2 t
abbrev bblk (c : Dev nD) (t : Fin cfg0.N) : Vec Ideal S1x128 .f32 := iblk m c 3 t

/-- Tile s's partial sum at (g, d): over the tile's 5000 rows k, (1 if row k's label is g else 0) ·
    max(a[k,d]·r[k,0] + b[0,d], 0), read off the windows' blocks at point s; zero past the grid. -/
def tilePart (c : Dev nD) (s : Nat) (g : Fin 100) (d : Fin 128) : EReal :=
  if h : s < cfg0.N then
    ∑ k : Fin 5000,
      (if (lblk m c ⟨s, h⟩ (ix2 k ⟨0, Nat.one_pos⟩)).toInt = (g.val : Int) then (1 : EReal) else 0)
        * max (ablk m c ⟨s, h⟩ (ix2 k d) * rblk m c ⟨s, h⟩ (ix2 k ⟨0, Nat.one_pos⟩)
            + bblk m c ⟨s, h⟩ (ix2 ⟨0, Nat.one_pos⟩ d)) 0
  else 0

/-- The block the body stores at the first point is the zero block. -/
theorem pay1_apply (i : S100x128.Idx) : k0_pay1 (F := Ideal) i = 0 := by
  unfold k0_pay1
  refine (congrFun (shapeCast_self _ shapeCasts_S100x128_S100x128) i).trans ?_
  show Ideal.ofBits .f32 0x00000000#32 = 0
  exact Ideal.ofBits_zero_f32

/-- The first point leaves tile 0's partial sum (added to the zero block), whatever the accumulator held. -/
theorem reset_apply (c : Dev nD) (hb : 0 < cfg0.N) (acc : Vec Ideal S100x128 .f32) (g : Fin 100) (d : Fin 128) :
    Value.scAt0_0 m c 0 hb acc (ix2 g d) = 0 + tilePart m c 0 g d := by
  have h0 : 0 % 20 = 0 := rfl
  have h1 : ¬ 0 % 20 = 19 := by decide
  unfold Value.scAt0_0
  rw [dif_pos h0, dif_neg h1]
  refine (congrFun (Pieces.scratch_A c (grid0.coords (⟨0, hb⟩ : Fin cfg0.N)) (ms0_0 (⟨0, hb⟩ : Fin cfg0.N)) (hs0_0 (⟨0, hb⟩ : Fin cfg0.N)) (ms0_1 (⟨0, hb⟩ : Fin cfg0.N)) (hs0_1 (⟨0, hb⟩ : Fin cfg0.N)) (ms0_2 (⟨0, hb⟩ : Fin cfg0.N)) (hs0_2 (⟨0, hb⟩ : Fin cfg0.N)) (ms0_3 (⟨0, hb⟩ : Fin cfg0.N)) (hs0_3 (⟨0, hb⟩ : Fin cfg0.N)) (ms0_4 (⟨0, hb⟩ : Fin cfg0.N)) (hs0_4 (⟨0, hb⟩ : Fin cfg0.N)) (ms0_5 (⟨0, hb⟩ : Fin cfg0.N)) (hs0_5 (⟨0, hb⟩ : Fin cfg0.N)) (ms0_6 (⟨0, hb⟩ : Fin cfg0.N)) (hs0_6 (⟨0, hb⟩ : Fin cfg0.N)) (ms0_7 (⟨0, hb⟩ : Fin cfg0.N)) (hs0_7 (⟨0, hb⟩ : Fin cfg0.N)) (ms0_8 (⟨0, hb⟩ : Fin cfg0.N)) (hs0_8 (⟨0, hb⟩ : Fin cfg0.N)) (ms0_9 (⟨0, hb⟩ : Fin cfg0.N)) (hs0_9 (⟨0, hb⟩ : Fin cfg0.N)) (ms0_10 (⟨0, hb⟩ : Fin cfg0.N)) (hs0_10 (⟨0, hb⟩ : Fin cfg0.N)) (ms0_11 (⟨0, hb⟩ : Fin cfg0.N)) (hs0_11 (⟨0, hb⟩ : Fin cfg0.N)) scM0_0 (Memref.isWhole_whole _) ((hcond0_0 (⟨0, hb⟩ : Fin cfg0.N)).mpr h0) (fun h => h1 ((hcond0_1 (⟨0, hb⟩ : Fin cfg0.N)).mp h)) (iblk m c 0 (⟨0, hb⟩ : Fin cfg0.N)) (iblk m c 1 (⟨0, hb⟩ : Fin cfg0.N)) (iblk m c 2 (⟨0, hb⟩ : Fin cfg0.N)) (iblk m c 3 (⟨0, hb⟩ : Fin cfg0.N)) (iblk m c 4 (⟨0, hb⟩ : Fin cfg0.N)) (iblk m c 5 (⟨0, hb⟩ : Fin cfg0.N)) (iblk m c 6 (⟨0, hb⟩ : Fin cfg0.N)) (iblk m c 7 (⟨0, hb⟩ : Fin cfg0.N)) (iblk m c 8 (⟨0, hb⟩ : Fin cfg0.N)) (iblk m c 9 (⟨0, hb⟩ : Fin cfg0.N)) (iblk m c 10 (⟨0, hb⟩ : Fin cfg0.N))) (ix2 g d)).trans ?_
  refine (Pool.pay2_apply (ablk m c (⟨0, hb⟩ : Fin cfg0.N)) (rblk m c (⟨0, hb⟩ : Fin cfg0.N)) (bblk m c (⟨0, hb⟩ : Fin cfg0.N)) (lblk m c (⟨0, hb⟩ : Fin cfg0.N)) (k0_pay1 (F := Ideal)) g d).trans ?_
  rw [pay1_apply]
  unfold tilePart
  rw [dif_pos hb]

/-- A later point adds its tile's partial sum to what the point before left. -/
theorem step_apply (c : Dev nD) (n : Nat) (hb : n < cfg0.N) (hpos : 0 < n) (acc : Vec Ideal S100x128 .f32)
    (g : Fin 100) (d : Fin 128) :
    Value.scAt0_0 m c n hb acc (ix2 g d) = acc (ix2 g d) + tilePart m c n g d := by
  have hN : n < 20 := lt_of_lt_of_eq hb (show cfg0.N = 20 from N_0)
  have h0 : ¬ n % 20 = 0 := by omega
  unfold Value.scAt0_0
  by_cases h1 : n % 20 = 19
  · rw [dif_neg h0, dif_pos h1]
    refine (congrFun (Pieces.scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc) (ix2 g d)).trans ?_
    refine (Pool.pay2_apply (ablk m c (⟨n, hb⟩ : Fin cfg0.N)) (rblk m c (⟨n, hb⟩ : Fin cfg0.N)) (bblk m c (⟨n, hb⟩ : Fin cfg0.N)) (lblk m c (⟨n, hb⟩ : Fin cfg0.N)) acc g d).trans ?_
    unfold tilePart
    rw [dif_pos hb]
  · rw [dif_neg h0, dif_neg h1]
    refine (congrFun (Pieces.scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc) (ix2 g d)).trans ?_
    refine (Pool.pay2_apply (ablk m c (⟨n, hb⟩ : Fin cfg0.N)) (rblk m c (⟨n, hb⟩ : Fin cfg0.N)) (bblk m c (⟨n, hb⟩ : Fin cfg0.N)) (lblk m c (⟨n, hb⟩ : Fin cfg0.N)) acc g d).trans ?_
    unfold tilePart
    rw [dif_pos hb]

/-- THE ACCUMULATOR after point n, at (g, d): the sum of the partial sums of tiles 0 … n. -/
theorem scratch_sum (c : Dev nD) (n : Nat) (hn : n < cfg0.N) (g : Fin 100) (d : Fin 128) :
    ((outsAt0 m c n hn).2 : Vec Ideal S100x128 .f32) (ix2 g d) = ∑ s ∈ Finset.range (n + 1), tilePart m c s g d := by
  have hN : n < 20 := lt_of_lt_of_eq hn (show cfg0.N = 20 from N_0)
  rw [Value.soutsAt0_0_sweep m c n hn]
  have key := Pipeline.accAt_add_apply (N := cfg0.N) (ι := S100x128.Idx) (β := EReal)
    (fun n h => Value.scAt0_0 m c n h (VS0_0.read (Elt Ideal) VS0_0.junk)) (Value.scAt0_0 m c)
    (fun _ => 0) (fun s i => tilePart m c s (i 0) (i 1)) 0 19
    (fun h i => by
      obtain ⟨p, q, rfl⟩ : ∃ (p : Fin 100) (q : Fin 128), i = ix2 p q := ⟨i 0, i 1, eq_ix2 i⟩
      exact reset_apply m c h _ p q)
    (fun n h acc i hlt _ => by
      obtain ⟨p, q, rfl⟩ : ∃ (p : Fin 100) (q : Fin 128), i = ix2 p q := ⟨i 0, i 1, eq_ix2 i⟩
      exact step_apply m c n h hlt acc p q)
    n (by omega) (by omega) (ix2 g d)
  refine key.trans ?_
  simp only [Nat.zero_add, zero_add]

end Cert.KernelIdeal.Fold

end
-- ==== Proof.Sums.lean ====
/-
  Sums over consecutive rows, and the indicator of one row's label.

  A graph readout adds, for every graph label g, the rows whose label is g.  Read as a matrix product it is
  a sum over ALL rows of (indicator of "the row's label is g") times the row; read as a segment sum it is the sum over
  the rows whose label is g.  Tiling the rows into runs of equal length changes nothing: the extended reals under
  addition are a commutative monoid, and zero times anything is zero there.
-/
import Mathlib.Algebra.BigOperators.Fin
import Mathlib.Logic.Equiv.Fin.Basic
import Mathlib.Data.EReal.Inv

namespace Cert.GraphPool

open Finset

/-- A sum over `a * b` consecutive naturals is the sum over `a` runs of `b` consecutive naturals. -/
theorem sum_runs {M : Type*} [AddCommMonoid M] (a b : ℕ) (f : ℕ → M) :
    ∑ n : Fin (a * b), f n.val = ∑ t : Fin a, ∑ k : Fin b, f (b * t.val + k.val) := by
  rw [← Equiv.sum_comp finProdFinEquiv (fun n : Fin (a * b) => f n.val), Fintype.sum_prod_type]
  refine Finset.sum_congr rfl fun t _ => Finset.sum_congr rfl fun k _ => ?_
  exact congrArg f (Nat.add_comm _ _)

/-- The sum of the first `a` runs, written over a range of run numbers. -/
theorem sum_range_runs {M : Type*} [AddCommMonoid M] (a b : ℕ) (f : ℕ → M) :
    ∑ t ∈ Finset.range a, ∑ k : Fin b, f (b * t + k.val) = ∑ n : Fin (a * b), f n.val := by
  rw [sum_runs, Finset.sum_range]

/-- An indicator times a value, summed, is the sum over the indices the indicator selects. -/
theorem sum_indicator_mul {ι : Type*} [Fintype ι] (p : ι → Prop) [DecidablePred p] (x : ι → EReal) :
    ∑ n, (if p n then (1 : EReal) else 0) * x n = ∑ n ∈ Finset.univ.filter p, x n := by
  rw [Finset.sum_filter]
  refine Finset.sum_congr rfl fun n _ => ?_
  by_cases h : p n
  · rw [if_pos h, if_pos h, one_mul]
  · rw [if_neg h, if_neg h, zero_mul]

end Cert.GraphPool
-- ==== Proof.KernelPool.lean ====
/-
  The pooling kernel's accumulator after the last grid point, read off the arrays the kernel region finds, at the
  ideal values.

  The 20 grid points load the 20 consecutive runs of 5000 node rows. After the last point the accumulator at `(g, d)` is
  the sum of the 20 tiles' partial sums; a tile's row `k` at point `s` is node `5000 s + k`, and the bias row is the same
  at every point. So the accumulator is one sum over all 100000 nodes `n`: (1 if node `n`'s label is `g` else 0) ·
  max(agg[n, d] · inv[n, 0] + bias[0, d], 0).
-/
import proofs.«419579_j69784628626008_2_alg».proof.Proof.KernelFold
import proofs.«419579_j69784628626008_2_alg».proof.Proof.KernelBlocks
import proofs.«419579_j69784628626008_2_alg».proof.Proof.Sums

noncomputable section

open scoped BigOperators

namespace Cert.KernelIdeal.Pool2

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The four arrays the accumulating body's windows cut, each at its literal type: the aggregated rows ([100000, 128]),
    the row scales ([100000, 1]), the row labels ([100000, 1], integers) and the bias row ([1, 128]). -/
abbrev aggArr (c : Dev nD) : Vec Ideal S100000x128 .f32 := V m c main_v34
abbrev invArr (c : Dev nD) : Vec Ideal S100000x1 .f32 := V m c main_v13
abbrev lblArr (c : Dev nD) : Vec Ideal S100000x1 .i32 := V m c main_v42
abbrev biasRow (c : Dev nD) : Vec Ideal S1x128 .f32 := V m c main_v43

/-- The grid has 20 points: 19 is the last. -/
theorem h19 : 19 < cfg0.N := lt_of_lt_of_eq (by decide : 19 < 20) (show cfg0.N = 20 from N_0).symm

/-- Node n's term at (g, d): (1 if node n's label is g else 0) · max(agg[n,d]·inv[n,0] + bias[0,d], 0); zero past the
    last node. -/
def nodeTerm (c : Dev nD) (g : Fin 100) (d : Fin 128) (n : ℕ) : EReal :=
  if h : n < 100000 then
    (if (lblArr m c (ix2 ⟨n, h⟩ ⟨0, Nat.one_pos⟩)).toInt = (g.val : Int) then (1 : EReal) else 0)
      * max (aggArr m c (ix2 ⟨n, h⟩ d) * invArr m c (ix2 ⟨n, h⟩ ⟨0, Nat.one_pos⟩) + biasRow m c (ix2 ⟨0, Nat.one_pos⟩ d)) 0
  else 0

/-- Tile s's partial sum is the sum of the terms of nodes 5000 s … 5000 s + 4999. -/
theorem tilePart_eq (c : Dev nD) (s : ℕ) (hs : s < cfg0.N) (g : Fin 100) (d : Fin 128) :
    Fold.tilePart m c s g d = ∑ k : Fin 5000, nodeTerm m c g d (5000 * s + k.val) := by
  unfold Fold.tilePart
  rw [dif_pos hs]
  refine Finset.sum_congr rfl fun k _ => ?_
  have hlt : 5000 * s + k.val < 100000 := Blocks.rows_lt ⟨s, hs⟩ k
  unfold nodeTerm
  rw [dif_pos hlt]
  have e0 : Fold.ablk m c ⟨s, hs⟩ (ix2 k d) = aggArr m c (ix2 ⟨5000 * s + k.val, hlt⟩ d) :=
    Blocks.blk0 m c ⟨s, hs⟩ k d
  have e1 : Fold.rblk m c ⟨s, hs⟩ (ix2 k ⟨0, Nat.one_pos⟩)
      = invArr m c (ix2 ⟨5000 * s + k.val, hlt⟩ ⟨0, Nat.one_pos⟩) := Blocks.blk1 m c ⟨s, hs⟩ k
  have e2 : Fold.lblk m c ⟨s, hs⟩ (ix2 k ⟨0, Nat.one_pos⟩)
      = lblArr m c (ix2 ⟨5000 * s + k.val, hlt⟩ ⟨0, Nat.one_pos⟩) := Blocks.blk2 m c ⟨s, hs⟩ k
  have e3 : Fold.bblk m c ⟨s, hs⟩ = biasRow m c := Blocks.blk3 m c ⟨s, hs⟩
  rw [e0, e1, e2, e3]

/-- THE ACCUMULATOR AFTER THE LAST POINT at (g, d): the sum over all nodes n of (1 if node n's label is g else 0) ·
    max(agg[n,d]·inv[n,0] + bias[0,d], 0). -/
theorem acc_last (c : Dev nD) (g : Fin 100) (d : Fin 128) :
    ((outsAt0 m c 19 h19).2 : Vec Ideal S100x128 .f32) (ix2 g d)
      = ∑ n : Fin 100000, (if (lblArr m c (ix2 n ⟨0, Nat.one_pos⟩)).toInt = (g.val : Int) then (1 : EReal) else 0)
          * max (aggArr m c (ix2 n d) * invArr m c (ix2 n ⟨0, Nat.one_pos⟩) + biasRow m c (ix2 ⟨0, Nat.one_pos⟩ d)) 0 := by
  rw [Fold.scratch_sum m c 19 h19 g d]
  have step : ∑ s ∈ Finset.range (19 + 1), Fold.tilePart m c s g d
      = ∑ s ∈ Finset.range 20, ∑ k : Fin 5000, nodeTerm m c g d (5000 * s + k.val) :=
    Finset.sum_congr rfl fun s hs =>
      tilePart_eq m c s (lt_of_lt_of_eq (Finset.mem_range.mp hs) (show cfg0.N = 20 from N_0).symm) g d
  rw [step, Cert.GraphPool.sum_range_runs 20 5000 (nodeTerm m c g d)]
  show ∑ n : Fin 100000, nodeTerm m c g d n.val = _
  refine Finset.sum_congr rfl fun n _ => ?_
  unfold nodeTerm
  rw [dif_pos n.isLt]

end Cert.KernelIdeal.Pool2

end
-- ==== Proof.KernelSpec.lean ====
/-
  The kernel program's host prefix, named piece by piece: what the arrays handed to the fused kernel hold.

  Before the fused pool-and-readout kernel the program computes, on the host:
    deg(idx)   = max(number of edges whose endpoint idx[e] is the node, 1)
    scale      = e_weight · rsqrt(deg src)[src']          (one number per edge: the source-side norm folded into the edge weight)
    msg        = features[src'] · scale                   (one row per edge)
    agg        = rows of msg added into the row their destination names
    cnt(gid)   = max(number of nodes whose graph label is the graph, 1)
  and reshapes rsqrt(deg dst), cnt, the labels and the bias vectors into columns and rows.
  Each definition is that piece as the program spells it.
-/
import proofs.«419579_j69784628626008_2_alg».proof.Proof.Gen.KernelIdeal

noncomputable section

namespace Cert.KernelIdeal.Spec

open Cert.KernelIdeal Cert.KernelIdeal.Gen Idealize.ShloMosaic

variable {F : FTy → Type} [FloatOps F]

/-- One per edge. -/
def edgeOnes : FVec F S1600000 .f32 := broadcastInDim S1600000 ![] bcast_S_S1600000 (constant S_ .f32 0x3F800000#32)

/-- The degree of every node with respect to one endpoint array, at least one. -/
def deg (idx : IVec S1600000 32) : FVec F S100000 .f32 :=
  maximumf (Host.scatterAdd scatter_S100000_S1600000x1_S1600000_n_0_0_1 (broadcastInDim S100000 ![] bcast_S_S100000 (constant S_ .f32 0x00000000#32))
      (broadcastInDim S1600000x1 ![0] bcast_S1600000_S1600000x1_0 idx) (edgeOnes (F := F)))
    (broadcastInDim S100000 ![] bcast_S_S100000 (constant S_ .f32 0x3F800000#32))

/-- The source array with its negative entries wrapped by the node count, as a column of start indices. -/
def wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The edge weight times the source-side norm of the edge's source. -/
def edgeScale (ew : FVec F S1600000 .f32) (src : IVec S1600000 32) : FVec F S1600000 .f32 :=
  mulf ew (Host.gather gather_S100000_S1600000x1_S1600000_n_0_n_n_0_1_1 (Host.rsqrt (deg (F := F) src)) (wrapped src))

/-- The edge messages: the feature rows gathered at the sources, times the folded scale. -/
def msg (feat : FVec F S100000x128 .f32) (ew : FVec F S1600000 .f32) (src : IVec S1600000 32) : FVec F S1600000x128 .f32 :=
  mulf (Host.gather gather_S100000x128_S1600000x1_S1600000x128_1_0_n_n_0_1_1128 feat (wrapped src))
    (broadcastInDim S1600000x128 ![0, 1] bcast_S1600000x1_S1600000x128_0_1 (broadcastInDim S1600000x1 ![0] bcast_S1600000_S1600000x1_0 (edgeScale ew src)))

/-- Edge rows added into the rows their destinations name. -/
def agg (ms : FVec F S1600000x128 .f32) (dst : IVec S1600000 32) : FVec F S100000x128 .f32 :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 dst) ms

/-- The number of nodes of every graph, at least one. -/
def cnt (gid : IVec S100000 32) : FVec F S100 .f32 :=
  maximumf (Host.scatterAdd scatter_S100_S100000x1_S100000_n_0_0_1 (broadcastInDim S100 ![] bcast_S_S100 (constant S_ .f32 0x00000000#32))
      (broadcastInDim S100000x1 ![0] bcast_S100000_S100000x1_0 gid) (broadcastInDim S100000 ![] bcast_S_S100000 (constant S_ .f32 0x3F800000#32)))
    (broadcastInDim S100 ![] bcast_S_S100 (constant S_ .f32 0x3F800000#32))

end Cert.KernelIdeal.Spec

end
-- ==== Proof.HostAgg.lean ====
/-
  What the arrays handed to the fused kernel hold when the kernel region is entered: the host prefix's named pieces
  (KernelSpec) of the argument arrays, read off the program's host operations one after the other.
-/
import proofs.«419579_j69784628626008_2_alg».proof.Proof.KernelSpec
import proofs.«419579_j69784628626008_2_alg».proof.Proof.Gen.KernelIdeal.Frame
import Idealize.ShloMosaic.Lib.StableHlo.Run

noncomputable section

namespace Cert.KernelIdeal.HostAgg

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The first window's array: the aggregated edge messages. -/
theorem V_agg (c : Dev nD) : (V m c main_v34 : FVec F S100000x128 .f32)
    = Spec.agg (Spec.msg (m ((c : Thread nD τ).loc main_arg0)) (m ((c : Thread nD τ).loc main_arg1)) (m ((c : Thread nD τ).loc main_arg2)))
        (m ((c : Thread nD τ).loc main_arg3)) := by
  dsimp only [Gen.V, Gen.hostOps0]
  after_results
  rfl

end Cert.KernelIdeal.HostAgg

end
-- ==== Proof.HostCols.lean ====
/-
  What the arrays handed to the fused kernel hold when the kernel region is entered: the host prefix's named pieces
  (KernelSpec) of the argument arrays, read off the program's host operations one after the other.
-/
import proofs.«419579_j69784628626008_2_alg».proof.Proof.KernelSpec
import proofs.«419579_j69784628626008_2_alg».proof.Proof.Gen.KernelIdeal.Frame
import Idealize.ShloMosaic.Lib.StableHlo.Run

noncomputable section

namespace Cert.KernelIdeal.HostCols

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The second window's array: the destination-side norm as a column. -/
theorem V_invIn (c : Dev nD) : (V m c main_v13 : FVec F S100000x1 .f32)
    = shapeCast S100000x1 (Host.rsqrt (Spec.deg (F := F) (m ((c : Thread nD τ).loc main_arg3)))) shapeCasts_S100000_S100000x1 := by
  dsimp only [Gen.V, Gen.hostOps0]
  after_results
  rfl

set_option maxHeartbeats 4000000 in
/-- The third window's array: the graph labels as a column. -/
theorem V_gid (c : Dev nD) : (V m c main_v42 : IVec S100000x1 32)
    = shapeCast S100000x1 (m ((c : Thread nD τ).loc main_arg4)) shapeCasts_S100000_S100000x1 := by
  dsimp only [Gen.V, Gen.hostOps0]
  after_results
  rfl

set_option maxHeartbeats 4000000 in
/-- The fifth window's array: the graphs' node counts as a column. -/
theorem V_cnt (c : Dev nD) : (V m c main_v41 : FVec F S100x1 .f32)
    = shapeCast S100x1 (Spec.cnt (F := F) (m ((c : Thread nD τ).loc main_arg4))) shapeCasts_S100_S100x1 := by
  dsimp only [Gen.V, Gen.hostOps0]
  after_results
  rfl

end Cert.KernelIdeal.HostCols

end
-- ==== Proof.HostRows.lean ====
/-
  What the arrays handed to the fused kernel hold when the kernel region is entered: the host prefix's named pieces
  (KernelSpec) of the argument arrays, read off the program's host operations one after the other.
-/
import proofs.«419579_j69784628626008_2_alg».proof.Proof.KernelSpec
import proofs.«419579_j69784628626008_2_alg».proof.Proof.Gen.KernelIdeal.Frame
import Idealize.ShloMosaic.Lib.StableHlo.Run

noncomputable section

namespace Cert.KernelIdeal.HostRows

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The fourth window's array: the third bias as a row. -/
theorem V_bias (c : Dev nD) : (V m c main_v43 : FVec F S1x128 .f32)
    = shapeCast S1x128 (m ((c : Thread nD τ).loc main_arg7)) shapeCasts_S128_S1x128 := by
  dsimp only [Gen.V, Gen.hostOps0]
  after_results
  rfl

set_option maxHeartbeats 4000000 in
/-- The dense layers' biases as rows. -/
theorem V_b1 (c : Dev nD) : (V m c main_v44 : FVec F S1x16 .f32)
    = shapeCast S1x16 (m ((c : Thread nD τ).loc main_arg9)) shapeCasts_S16_S1x16 := by
  dsimp only [Gen.V, Gen.hostOps0]
  after_results
  rfl

set_option maxHeartbeats 4000000 in
theorem V_b2 (c : Dev nD) : (V m c main_v45 : FVec F S1x8 .f32)
    = shapeCast S1x8 (m ((c : Thread nD τ).loc main_arg11)) shapeCasts_S8_S1x8 := by
  dsimp only [Gen.V, Gen.hostOps0]
  after_results
  rfl

set_option maxHeartbeats 4000000 in
theorem V_b3 (c : Dev nD) : (V m c main_v46 : FVec F S1x1 .f32)
    = shapeCast S1x1 (m ((c : Thread nD τ).loc main_arg13)) shapeCasts_S1_S1x1 := by
  dsimp only [Gen.V, Gen.hostOps0]
  after_results
  rfl

end Cert.KernelIdeal.HostRows

end
-- ==== Proof.RefSpec.lean ====
/-
  The reference program's result, named piece by piece.

  The jnp reference is a graph convolution followed by a readout:
    deg(idx)      = max(1, number of edges whose endpoint idx[e] is the node)            (one entry per node)
    msg           = (features · rsqrt(deg src))[src'] · e_weight                          (one row per edge; src' is src with
                                                                                            negative entries wrapped by the node count)
    agg           = rows of msg added into the row their destination names
    h             = max(agg · rsqrt(deg dst) + bias, 0)
    cnt(gid)      = max(1, number of nodes whose graph label is the graph)
    pooled        = rows of h added into the row their graph label names
    readout       = sigmoid(relu(relu((pooled / cnt)·W1 + b1)·W2 + b2)·W3 + b3),   sigmoid x = 1 / (1 + e^(-x)).
  Each definition below is that piece as the program spells it (the same operations in the same order), so that the
  program's composed result is these definitions composed, by unfolding alone.
-/
import proofs.«419579_j69784628626008_2_alg».proof.Proof.Gen.ReferenceIdeal

noncomputable section

namespace Cert.ReferenceIdeal.Spec

open Cert.ReferenceIdeal Cert.ReferenceIdeal.Gen Idealize.ShloMosaic

variable {F : FTy → Type} [FloatOps F]

/-- One per edge. -/
def edgeOnes : FVec F S1600000 .f32 := broadcastInDim S1600000 ![] bcast_S_S1600000 (constant S_ .f32 0x3F800000#32)

/-- The degree of every node with respect to one endpoint array, at least one. -/
def deg (idx : IVec S1600000 32) : FVec F S100000 .f32 :=
  maximumf (broadcastInDim S100000 ![] bcast_S_S100000 (id (constant S_ .f32 0x3F800000#32)))
    (Host.scatterAdd scatter_S100000_S1600000x1_S1600000_n_0_0_1 (broadcastInDim S100000 ![] bcast_S_S100000 (constant S_ .f32 0x00000000#32))
      (broadcastInDim S1600000x1 ![0] bcast_S1600000_S1600000x1_0 idx) (edgeOnes (F := F)))

/-- The source array with its negative entries wrapped by the node count, as a column of start indices. -/
def wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The edge messages: the source-normalised feature rows gathered at the sources, times the edge weights. -/
def msg (feat : FVec F S100000x128 .f32) (ew : FVec F S1600000 .f32) (src : IVec S1600000 32) : FVec F S1600000x128 .f32 :=
  mulf (Host.gather gather_S100000x128_S1600000x1_S1600000x128_1_0_n_n_0_1_1128
      (mulf feat (broadcastInDim S100000x128 ![0, 1] bcast_S100000x1_S100000x128_0_1
        (broadcastInDim S100000x1 ![0] bcast_S100000_S100000x1_0 (Host.rsqrt (deg (F := F) src))))) (wrapped src))
    (broadcastInDim S1600000x128 ![0, 1] bcast_S1600000x1_S1600000x128_0_1 (broadcastInDim S1600000x1 ![0] bcast_S1600000_S1600000x1_0 ew))

/-- Edge rows added into the rows their destinations name. -/
def agg (ms : FVec F S1600000x128 .f32) (dst : IVec S1600000 32) : FVec F S100000x128 .f32 :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 dst) ms

/-- The node activations: destination-normalised, biased, rectified. -/
def act (ag : FVec F S100000x128 .f32) (dst : IVec S1600000 32) (bias : FVec F S128 .f32) : FVec F S100000x128 .f32 :=
  maximumf (addf (mulf ag (broadcastInDim S100000x128 ![0, 1] bcast_S100000x1_S100000x128_0_1
        (broadcastInDim S100000x1 ![0] bcast_S100000_S100000x1_0 (Host.rsqrt (deg (F := F) dst)))))
      (broadcastInDim S100000x128 ![0, 1] bcast_S1x128_S100000x128_0_1 (broadcastInDim S1x128 ![1] bcast_S128_S1x128_1 bias)))
    (broadcastInDim S100000x128 ![] bcast_S_S100000x128 (constant S_ .f32 0x00000000#32))

/-- The number of nodes of every graph, at least one. -/
def cnt (gid : IVec S100000 32) : FVec F S100 .f32 :=
  maximumf (broadcastInDim S100 ![] bcast_S_S100 (id (constant S_ .f32 0x3F800000#32)))
    (Host.scatterAdd scatter_S100_S100000x1_S100000_n_0_0_1 (broadcastInDim S100 ![] bcast_S_S100 (constant S_ .f32 0x00000000#32))
      (broadcastInDim S100000x1 ![0] bcast_S100000_S100000x1_0 gid) (broadcastInDim S100000 ![] bcast_S_S100000 (constant S_ .f32 0x3F800000#32)))

/-- Node rows added into the rows their graph labels name. -/
def pooled (h : FVec F S100000x128 .f32) (gid : IVec S100000 32) : FVec F S100x128 .f32 :=
  Host.scatterAdd scatter_S100x128_S100000x1_S100000x128_1_0_0_1 (broadcastInDim S100x128 ![] bcast_S_S100x128 (constant S_ .f32 0x00000000#32))
    (broadcastInDim S100000x1 ![0] bcast_S100000_S100000x1_0 gid) h

/-- The readout of the pooled rows: the mean, three dense layers, the last through the logistic function spelt out. -/
def readout (cn : FVec F S100 .f32) (p : FVec F S100x128 .f32) (w1 : FVec F S128x16 .f32) (b1 : FVec F S16 .f32)
    (w2 : FVec F S16x8 .f32) (b2 : FVec F S8 .f32) (w3 : FVec F S8x1 .f32) (b3 : FVec F S1 .f32) : FVec F S100x1 .f32 :=
  Host.divf (broadcastInDim S100x1 ![] bcast_S_S100x1 (constant S_ .f32 0x3F800000#32))
    (addf (broadcastInDim S100x1 ![] bcast_S_S100x1 (constant S_ .f32 0x3F800000#32))
      (Host.exp (Host.negf (addf (Host.dotGeneral dot_S100x8_S8x1_S100x1_1_0_0_1_n_n none
        (maximumf (addf (Host.dotGeneral dot_S100x16_S16x8_S100x8_1_0_0_1_n_n none
          (maximumf (addf (Host.dotGeneral dot_S100x128_S128x16_S100x16_1_0_0_1_n_n none
            (Host.divf p (broadcastInDim S100x128 ![0, 1] bcast_S100x1_S100x128_0_1 (broadcastInDim S100x1 ![0] bcast_S100_S100x1_0 cn))) w1)
            (broadcastInDim S100x16 ![0, 1] bcast_S1x16_S100x16_0_1 (broadcastInDim S1x16 ![1] bcast_S16_S1x16_1 b1)))
            (broadcastInDim S100x16 ![] bcast_S_S100x16 (constant S_ .f32 0x00000000#32))) w2)
          (broadcastInDim S100x8 ![0, 1] bcast_S1x8_S100x8_0_1 (broadcastInDim S1x8 ![1] bcast_S8_S1x8_1 b2)))
          (broadcastInDim S100x8 ![] bcast_S_S100x8 (constant S_ .f32 0x00000000#32))) w3)
        (broadcastInDim S100x1 ![0, 1] bcast_S1x1_S100x1_0_1 (broadcastInDim S1x1 ![1] bcast_S1_S1x1_1 b3))))))

/-- The whole reference, of its arguments. -/
def result (feat : FVec F S100000x128 .f32) (ew : FVec F S1600000 .f32) (src dst : IVec S1600000 32) (gid : IVec S100000 32)
    (bias : FVec F S128 .f32) (w1 : FVec F S128x16 .f32) (b1 : FVec F S16 .f32) (w2 : FVec F S16x8 .f32) (b2 : FVec F S8 .f32)
    (w3 : FVec F S8x1 .f32) (b3 : FVec F S1 .f32) : FVec F S100x1 .f32 :=
  readout (cnt (F := F) gid) (pooled (act (agg (msg feat ew src) dst) dst bias) gid) w1 b1 w2 b2 w3 b3

end Cert.ReferenceIdeal.Spec

end
-- ==== Proof.GatherRows.lean ====
/-
  Reading jnp's `x[idx]` along axis 0 at one element.

  `x[idx]` with an integer vector `idx : [E]` lowers to `stablehlo.gather` with the start indices reshaped to
  `[E, 1]` and index_vector_dim 1. For a matrix operand `[N, D]` the result is `[E, D]` (whole rows are gathered);
  for a vector operand `[N]` the result is `[E]`. In both cases the result at row `e` is the operand at the row
  `idx[e, 0]`, read as a signed integer and clamped into `[0, N − 1]`. Any element type.
-/
import Idealize.ShloMosaic.PureOps.Ideal
import Idealize.ShloMosaic.Lib.ValueIdx

noncomputable section

namespace Cert.GraphPool

open Idealize.ShloMosaic Idealize.ShloMosaic.ValueIdx

/-- Gather of whole rows: operand `[N, D]`, start indices `[E, 1]`, result `[E, D]`; offset_dims `[1]`,
    collapsed_slice_dims `[0]`, no batching dims, start_index_map `[0]`, index_vector_dim 1, slice_sizes `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row `e`, column `d` of the gather is the operand at (the start index `idx[e, 0]` read signed and clamped into
    `[0, N − 1]`, `d`). -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowGatherDims N E D wf) x idx (ix2 e d)
      = x (ix2 (⟨min (idx (ix2 e ⟨0, Nat.one_pos⟩)).toInt.toNat (N - 1), by omega⟩ : Fin N) d) := by
  -- the collapsed axis: no batching, no offset, the start is the clamped start index
  have h0 : (rowGatherDims N E D wf).start (ix2 e d) idx (0 : Fin 2)
      + (rowGatherDims N E D wf).batchCoord (ix2 e d) (0 : Fin 2)
      + (rowGatherDims N E D wf).offCoord (ix2 e d) (0 : Fin 2)
      = min (idx (ix2 e ⟨0, Nat.one_pos⟩)).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e d)
        ⟨List.idxOf (0 : Fin 2) (rowGatherDims N E D wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  -- the kept axis: the start index map does not name it, no batching, the offset is the column
  have h1 : (rowGatherDims N E D wf).start (ix2 e d) idx (1 : Fin 2)
      + (rowGatherDims N E D wf).batchCoord (ix2 e d) (1 : Fin 2)
      + (rowGatherDims N E D wf).offCoord (ix2 e d) (1 : Fin 2) = d.val := by
    have hstart : (rowGatherDims N E D wf).start (ix2 e d) idx (1 : Fin 2) = 0 := by
      unfold GatherDims.start
      rw [dif_neg (show (1 : Fin 2) ∉ ([0] : List (Fin 2)) from by decide)]
    have hoff : (rowGatherDims N E D wf).offCoord (ix2 e d) (1 : Fin 2) = d.val := by
      unfold GatherDims.offCoord
      rw [dif_pos ((GatherDims.mem_sKept _ _).mpr
        ⟨(show (1 : Fin 2) ∉ ([0] : List (Fin 2)) from by decide), List.not_mem_nil⟩)]
      rfl
    rw [GatherDims.batchCoord_eq_zero _ _ _ List.not_mem_nil, hstart, hoff, Nat.add_zero, Nat.zero_add]
  unfold Host.gather
  congr 1
  funext a
  refine Fin.ext ?_
  match a with
  | ⟨0, _⟩ => exact h0
  | ⟨1, _⟩ => exact h1

/-- Gather of single elements of a vector: operand `[N]`, start indices `[E, 1]`, result `[E]`; offset_dims `[]`,
    collapsed_slice_dims `[0]`, no batching dims, start_index_map `[0]`, index_vector_dim 1, slice_sizes `[1]`. -/
abbrev eltGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gather is the operand at the start index `idx[e, 0]` read signed and clamped into
    `[0, N − 1]`. -/
theorem eltGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (eltGatherDims N E wf) x idx (ix1 e)
      = x (ix1 (⟨min (idx (ix2 e ⟨0, Nat.one_pos⟩)).toInt.toNat (N - 1), by omega⟩ : Fin N)) := by
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e)
      ⟨List.idxOf (0 : Fin 1) (eltGatherDims N E wf).startIndexMap,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end Cert.GraphPool

end
-- ==== Proof.MsgBridge.lean ====
/-
  The two programs aggregate the same edge messages.

  The reference scales every feature row by its node's source-side norm r = rsqrt(max(1, out-degree)) and then gathers
  the rows at the edges' sources and multiplies by the edge weight w: (x[c]·r[c])·w.  The kernel program gathers the raw
  rows and multiplies by the folded scale w·r[c]: x[c]·(w·r[c]).  A gather reads its operand at the clamped start
  index c of the edge, the same c on both sides, so element by element the two are one product of three extended reals
  in another order: multiplication of extended reals is commutative and associative (no finiteness is used).  The
  degrees themselves differ only in the order of the two arguments of a maximum.
-/
import proofs.«419579_j69784628626008_2_alg».proof.Proof.RefSpec
import proofs.«419579_j69784628626008_2_alg».proof.Proof.KernelSpec
import proofs.«419579_j69784628626008_2_alg».proof.Proof.GatherRows
import Idealize.ShloMosaic.Lib.ValueIdx
import Idealize.ShloMosaic.Lib.Pipeline.Value

noncomputable section

namespace Cert.GraphPool.Bridge

open Idealize.ShloMosaic Idealize.ShloMosaic.ValueIdx

/-- A vector broadcast to a column and then along rows reads, at (e, d), its entry e. -/
theorem bcast_col_rows {n q : Nat} (hq : q ≠ 1) (hn : n ≠ 1) (h1 : (⟨1, ![n]⟩ : Shape).BroadcastsInDim ⟨2, ![n, 1]⟩ ![0])
    (h2 : (⟨2, ![n, 1]⟩ : Shape).BroadcastsInDim ⟨2, ![n, q]⟩ ![0, 1]) {α : Type} (v : (⟨1, ![n]⟩ : Shape).Idx → α) (e : Fin n) (d : Fin q) :
    broadcastInDim ⟨2, ![n, q]⟩ ![0, 1] h2 (broadcastInDim ⟨2, ![n, 1]⟩ ![0] h1 v) (ix2 e d) = v (ix1 e) := by
  refine (broadcastInDim_apply _ h2 _ (ix2 e d) (ix2 e ⟨0, Nat.one_pos⟩) fun a => ?_).trans ?_
  · match a with
    | ⟨0, _⟩ => exact (if_neg hn).symm
    | ⟨1, _⟩ => exact (if_pos rfl).symm
  · refine broadcastInDim_apply _ h1 v (ix2 e ⟨0, Nat.one_pos⟩) (ix1 e) fun a => ?_
    match a with
    | ⟨0, _⟩ => exact (if_neg hn).symm

/-- A maximum of two arrays does not depend on the order of its arguments. -/
theorem maximumf_comm {s : Shape} (A B : FVec Ideal s .f32) : maximumf A B = maximumf B A := by
  funext i
  show max (A i) (B i) = max (B i) (A i)
  exact max_comm _ _

/-- The degrees of the two programs agree: a maximum does not depend on the order of its arguments. -/
theorem deg_eq (idx : IVec ⟨1, ![1600000]⟩ 32) : Cert.KernelIdeal.Spec.deg (F := Ideal) idx = Cert.ReferenceIdeal.Spec.deg (F := Ideal) idx :=
  (maximumf_comm _ _).trans rfl

/-- So do the graphs' node counts. -/
theorem cnt_eq (gid : IVec ⟨1, ![100000]⟩ 32) : Cert.KernelIdeal.Spec.cnt (F := Ideal) gid = Cert.ReferenceIdeal.Spec.cnt (F := Ideal) gid :=
  (maximumf_comm _ _).trans rfl

/-- Gathering scaled rows and then weighting, or gathering raw rows and weighting by the gathered scale: one product of
    three extended reals per element, in another order. Stated over any extents. -/
theorem gather_scale_comm {N E D : Nat} (hN : 0 < N) (hD : D ≠ 1) (hE : E ≠ 1) (hN1 : N ≠ 1)
    (wfr : GatherDims.WF ⟨2, ![N, D]⟩ ⟨2, ![E, 1]⟩ ⟨2, ![E, D]⟩ [1] [0] [] [0] [] 1 ![1, D])
    (wfe : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0]) (hE2 : (⟨2, ![E, 1]⟩ : Shape).BroadcastsInDim ⟨2, ![E, D]⟩ ![0, 1])
    (hNa : (⟨1, ![N]⟩ : Shape).BroadcastsInDim ⟨2, ![N, 1]⟩ ![0]) (hNb : (⟨2, ![N, 1]⟩ : Shape).BroadcastsInDim ⟨2, ![N, D]⟩ ![0, 1])
    (x : FVec Ideal ⟨2, ![N, D]⟩ .f32) (w : FVec Ideal ⟨1, ![E]⟩ .f32) (rK rR : FVec Ideal ⟨1, ![N]⟩ .f32) (hr : rK = rR)
    (idx : IVec ⟨2, ![E, 1]⟩ 32) :
    mulf (Host.gather (rowGatherDims N E D wfr) x idx)
        (broadcastInDim ⟨2, ![E, D]⟩ ![0, 1] hE2 (broadcastInDim ⟨2, ![E, 1]⟩ ![0] hE1 (mulf w (Host.gather (eltGatherDims N E wfe) rK idx))))
      = mulf (Host.gather (rowGatherDims N E D wfr) (mulf x (broadcastInDim ⟨2, ![N, D]⟩ ![0, 1] hNb (broadcastInDim ⟨2, ![N, 1]⟩ ![0] hNa rR))) idx)
        (broadcastInDim ⟨2, ![E, D]⟩ ![0, 1] hE2 (broadcastInDim ⟨2, ![E, 1]⟩ ![0] hE1 w)) := by
  subst hr
  funext j
  obtain ⟨e, d, rfl⟩ : ∃ (e : Fin E) (d : Fin D), j = ix2 e d := ⟨j 0, j 1, eq_ix2 j⟩
  rw [mulf_apply, mulf_apply, rowGather_apply hN, rowGather_apply hN, bcast_col_rows hD hE, bcast_col_rows hD hE, mulf_apply,
    eltGather_apply hN, mulf_apply, bcast_col_rows hD hN1]
  rw [mul_comm (w (ix1 e)), mul_assoc]

/-- The edge messages of the two programs agree. -/
theorem msg_eq (feat : FVec Ideal ⟨2, ![100000, 128]⟩ .f32) (ew : FVec Ideal ⟨1, ![1600000]⟩ .f32) (src : IVec ⟨1, ![1600000]⟩ 32) :
    Cert.KernelIdeal.Spec.msg (F := Ideal) feat ew src = Cert.ReferenceIdeal.Spec.msg (F := Ideal) feat ew src :=
  gather_scale_comm (N := 100000) (E := 1600000) (D := 128) (by norm_num) (by norm_num) (by norm_num) (by norm_num)
    Cert.KernelIdeal.Gen.gather_S100000x128_S1600000x1_S1600000x128_1_0_n_n_0_1_1128_wf
    Cert.KernelIdeal.Gen.gather_S100000_S1600000x1_S1600000_n_0_n_n_0_1_1_wf
    Cert.KernelIdeal.Gen.bcast_S1600000_S1600000x1_0 Cert.KernelIdeal.Gen.bcast_S1600000x1_S1600000x128_0_1
    Cert.ReferenceIdeal.Gen.bcast_S100000_S100000x1_0 Cert.ReferenceIdeal.Gen.bcast_S100000x1_S100000x128_0_1
    feat ew (Host.rsqrt (Cert.KernelIdeal.Spec.deg (F := Ideal) src)) (Host.rsqrt (Cert.ReferenceIdeal.Spec.deg (F := Ideal) src))
    (congrArg Host.rsqrt (deg_eq src)) (Cert.KernelIdeal.Spec.wrapped src)

/-- Hence the aggregated rows agree. -/
theorem agg_eq (feat : FVec Ideal ⟨2, ![100000, 128]⟩ .f32) (ew : FVec Ideal ⟨1, ![1600000]⟩ .f32) (src dst : IVec ⟨1, ![1600000]⟩ 32) :
    Cert.KernelIdeal.Spec.agg (F := Ideal) (Cert.KernelIdeal.Spec.msg feat ew src) dst = Cert.ReferenceIdeal.Spec.agg (F := Ideal) (Cert.ReferenceIdeal.Spec.msg feat ew src) dst := by
  rw [msg_eq]
  rfl

end Cert.GraphPool.Bridge

end
-- ==== Proof.ScatterRows.lean ====
/-
  The accumulating scatter of rows by an integer label, read at one element.

  An array of N rows of D columns is added, row by row, into an array of G rows of D columns: row n goes to the
  row its label names.  In StableHLO's words this is a scatter with an adding body whose operand is [G, D], whose
  scatter indices are the labels as [N, 1] and whose updates are [N, D]; the window of an update is its column
  coordinate, the operand's row axis is inserted, and the one component of a scatter index names the operand's row.
  Read at element (g, d) the result is the operand's element plus the sum, over ALL rows n, of row n's element in
  column d when row n's label (read signed) is g, and of zero otherwise.  A row whose label names no row of the
  operand lands nowhere, which the same formula says: no g equals its label.
-/
import Idealize.ShloMosaic.PureOps.Ideal
import Idealize.ShloMosaic.Lib.ValueIdx

noncomputable section

open scoped BigOperators

namespace Cert.GraphPool

open Idealize.ShloMosaic Idealize.ShloMosaic.ValueIdx

/-- The dimension numbers of a scatter of rows: operand [G, D], scatter indices [N, 1], updates [N, D];
    update_window_dims [1], inserted_window_dims [0], scatter_dims_to_operand_dims [0], index_vector_dim 1. -/
abbrev rowScatterDims (G N D : Nat) (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ where
  updateWindowDims := [1]
  insertedWindowDims := [0]
  scatterDimsToOperandDims := [0]
  indexVectorDim := 1
  wf := wf

section
variable {G N D w : Nat} (wf : ScatterDims.WF ⟨2, ![G, D]⟩ ⟨2, ![N, 1]⟩ ⟨2, ![N, D]⟩ [1] [0] [0] 1)

/-- On the operand's row axis the window of update (n, d') starts at row n's label, read signed. -/
theorem rowScatter_start0 (idx : IVec ⟨2, ![N, 1]⟩ w) (n : Fin N) (d' : Fin D) :
    (rowScatterDims G N D wf).start (ix2 n d') idx 0 = (idx (ix2 n ⟨0, Nat.one_pos⟩)).toInt := by
  unfold ScatterDims.start
  rw [dif_pos (show (0 : Fin 2) ∈ (rowScatterDims G N D wf).scatterDimsToOperandDims from List.mem_singleton.mpr rfl)]
  have hsi : (rowScatterDims G N D wf).siIdx (ix2 n d') ⟨List.idxOf (0 : Fin 2) (rowScatterDims G N D wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- On the operand's column axis, which no component of a scatter index names, the window starts at 0. -/
theorem rowScatter_start1 (idx : IVec ⟨2, ![N, 1]⟩ w) (n : Fin N) (d' : Fin D) :
    (rowScatterDims G N D wf).start (ix2 n d') idx 1 = 0 := by
  unfold ScatterDims.start
  rw [dif_neg (show (1 : Fin 2) ∉ [(0 : Fin 2)] by decide)]

/-- The operand's row axis is inserted: the window coordinate there is 0. -/
theorem rowScatter_window0 (n : Fin N) (d' : Fin D) : (rowScatterDims G N D wf).window (ix2 n d') 0 = 0 := by
  unfold ScatterDims.window
  have h : (0 : Fin 2) ∉ (rowScatterDims G N D wf).sKept :=
    show (0 : Fin 2) ∉ (List.finRange 2).filter (· ∉ [(0 : Fin 2)]) by decide
  rw [dif_neg h]

/-- On the operand's column axis the window coordinate is the update's column. -/
theorem rowScatter_window1 (n : Fin N) (d' : Fin D) : (rowScatterDims G N D wf).window (ix2 n d') 1 = d'.val := by
  unfold ScatterDims.window
  have h : (1 : Fin 2) ∈ (rowScatterDims G N D wf).sKept :=
    show (1 : Fin 2) ∈ (List.finRange 2).filter (· ∉ [(0 : Fin 2)]) by decide
  rw [dif_pos h]
  rfl

/-- Update (n, d') lands on (g, d) exactly when row n's label, read signed, is g and d' = d. -/
theorem rowScatter_resultIdx_iff (idx : IVec ⟨2, ![N, 1]⟩ w) (n : Fin N) (d' : Fin D) (g : Fin G) (d : Fin D) :
    (rowScatterDims G N D wf).resultIdx? (ix2 n d') idx = some (ix2 g d) ↔
      ((idx (ix2 n ⟨0, Nat.one_pos⟩)).toInt = (g.val : Int) ∧ d' = d) := by
  have hs0 := rowScatter_start0 wf idx n d'
  have hs1 := rowScatter_start1 wf idx n d'
  have hw0 := rowScatter_window0 wf n d'
  have hw1 := rowScatter_window1 wf n d'
  have hg : g.val < G := g.isLt
  have hd : d.val < D := d.isLt
  have hd' : d'.val < D := d'.isLt
  unfold ScatterDims.resultIdx?
  constructor
  · intro h
    split at h
    · rename_i hc
      have hfe := Option.some.inj h
      have h0 : ((rowScatterDims G N D wf).start (ix2 n d') idx 0 + ((rowScatterDims G N D wf).window (ix2 n d') 0 : Int)).toNat
          = g.val := congrArg Fin.val (congrFun hfe 0)
      have h1 : ((rowScatterDims G N D wf).start (ix2 n d') idx 1 + ((rowScatterDims G N D wf).window (ix2 n d') 1 : Int)).toNat
          = d.val := congrArg Fin.val (congrFun hfe 1)
      have hc0 := (hc 0).1
      rw [hs0, hw0] at h0 hc0
      rw [hs1, hw1] at h1
      refine ⟨by omega, Fin.ext (by omega)⟩
    · exact absurd h (by simp)
  · rintro ⟨hL, rfl⟩
    have hc : ∀ a : Fin 2, 0 ≤ (rowScatterDims G N D wf).start (ix2 n d') idx a + ((rowScatterDims G N D wf).window (ix2 n d') a : Int) ∧
        (rowScatterDims G N D wf).start (ix2 n d') idx a + ((rowScatterDims G N D wf).window (ix2 n d') a : Int)
          < ((⟨2, ![G, D]⟩ : Shape).size a : Int) := by
      intro a
      match a with
      | ⟨0, _⟩ =>
        show 0 ≤ (rowScatterDims G N D wf).start (ix2 n d') idx 0 + ((rowScatterDims G N D wf).window (ix2 n d') 0 : Int) ∧
          (rowScatterDims G N D wf).start (ix2 n d') idx 0 + ((rowScatterDims G N D wf).window (ix2 n d') 0 : Int) < (G : Int)
        rw [hs0, hw0]; omega
      | ⟨1, _⟩ =>
        show 0 ≤ (rowScatterDims G N D wf).start (ix2 n d') idx 1 + ((rowScatterDims G N D wf).window (ix2 n d') 1 : Int) ∧
          (rowScatterDims G N D wf).start (ix2 n d') idx 1 + ((rowScatterDims G N D wf).window (ix2 n d') 1 : Int) < (D : Int)
        rw [hs1, hw1]; omega
    rw [dif_pos hc]
    congr 1
    funext a
    refine Fin.ext ?_
    match a with
    | ⟨0, _⟩ =>
      show ((rowScatterDims G N D wf).start (ix2 n d') idx 0 + ((rowScatterDims G N D wf).window (ix2 n d') 0 : Int)).toNat = g.val
      rw [hs0, hw0]; omega
    | ⟨1, _⟩ =>
      show ((rowScatterDims G N D wf).start (ix2 n d') idx 1 + ((rowScatterDims G N D wf).window (ix2 n d') 1 : Int)).toNat = d'.val
      rw [hs1, hw1]; omega

/-- THE SCATTER READ AT (g, d): the operand's element plus the sum over ALL rows n of row n's element in column d
    when row n's label, read signed, is g, and of 0 otherwise. -/
theorem rowScatter_apply (x : (⟨2, ![G, D]⟩ : Shape).Idx → EReal) (idx : IVec ⟨2, ![N, 1]⟩ w)
    (upd : (⟨2, ![N, D]⟩ : Shape).Idx → EReal) (g : Fin G) (d : Fin D) :
    Ideal.hostScatterAdd (rowScatterDims G N D wf) x idx upd (ix2 g d)
      = x (ix2 g d) + ∑ n : Fin N, (if (idx (ix2 n ⟨0, Nat.one_pos⟩)).toInt = (g.val : Int) then upd (ix2 n d) else 0) := by
  unfold Ideal.hostScatterAdd
  congr 1
  rw [Finset.sum_filter, sum_idx2]
  refine Finset.sum_congr rfl fun n _ => ?_
  -- the inner sum runs over the columns d' of row n; only d' = d can land on column d
  rw [Finset.sum_congr rfl fun d' _ => if_congr (rowScatter_resultIdx_iff wf idx n d' g d) rfl rfl]
  by_cases hL : (idx (ix2 n ⟨0, Nat.one_pos⟩)).toInt = (g.val : Int)
  · rw [if_pos hL]
    rw [Finset.sum_congr rfl fun d' _ => if_congr (and_iff_right hL) rfl rfl]
    rw [Finset.sum_ite_eq' Finset.univ d (fun d' => upd (ix2 n d')), if_pos (Finset.mem_univ d)]
  · rw [if_neg hL]
    exact Finset.sum_eq_zero fun d' _ => if_neg fun h => hL h.1

end

end Cert.GraphPool

end
-- ==== Proof.PoolBridge.lean ====
/-
  The reference's node activations and its pooled rows read at one element, and a vector reshaped to a column or a
  row read at one element; at the ideal values.

  A vector of n entries reshaped to [n, 1] or to [1, n] keeps its row-major order, so entry k sits at (k, 0) or at
  (0, k).  The reference lays a vector over a matrix in two steps (made a column or a row, then broadcast over both
  axes); read at (g, d) that is the vector at g, or at d.  With these the activation of a node in a column is
  max(agg · rsqrt(deg) + bias, 0) of the elements, and a pooled row in a column — rows added from zero into the rows
  their graph labels name — is the sum over ALL nodes of the node's element where the node's label is the row and of
  zero elsewhere.
-/
import proofs.«419579_j69784628626008_2_alg».proof.Proof.RefSpec
import proofs.«419579_j69784628626008_2_alg».proof.Proof.ScatterRows
import Idealize.ShloMosaic.Lib.ValueIdx
import Idealize.ShloMosaic.Lib.Pipeline.Value
import Idealize.ShloMosaic.Lib.IdealHost
import Idealize.ShloMosaic.Lib.KernelVsHost

noncomputable section

open scoped BigOperators

namespace Cert.GraphPool.PoolBridge

open Idealize.ShloMosaic Idealize.ShloMosaic.ValueIdx

/-! ## A vector reshaped to a column or a row -/

section Reshape
variable {α : Type}

/-- A vector reshaped to a column reads its entry n at (n, 0) … -/
theorem col_apply {n : Nat} (h : (⟨1, ![n]⟩ : Shape).ShapeCasts ⟨2, ![n, 1]⟩) (v : (⟨1, ![n]⟩ : Shape).Idx → α)
    (p : Fin n) : shapeCast ⟨2, ![n, 1]⟩ v h (ix2 p ⟨0, Nat.one_pos⟩) = v (ix1 p) :=
  shapeCast_apply v h (ix2 p ⟨0, Nat.one_pos⟩) (ix1 p) (by
    rw [Shape.rowMajor_val_two, Shape.rowMajor_val_one]
    show p.val = p.val * 1 + 0
    omega)

/-- … and reshaped to a row reads its entry j at (0, j). -/
theorem row_apply {n : Nat} (h : (⟨1, ![n]⟩ : Shape).ShapeCasts ⟨2, ![1, n]⟩) (v : (⟨1, ![n]⟩ : Shape).Idx → α)
    (j : Fin n) : shapeCast ⟨2, ![1, n]⟩ v h (ix2 ⟨0, Nat.one_pos⟩ j) = v (ix1 j) :=
  shapeCast_apply v h (ix2 ⟨0, Nat.one_pos⟩ j) (ix1 j) (by
    rw [Shape.rowMajor_val_two, Shape.rowMajor_val_one]
    show j.val = 0 * n + j.val
    omega)

end Reshape

/-! ## A vector broadcast over a matrix, in the host's two steps -/

section Broadcasts
variable {α : Type}

/-- A vector [m] made a column [m, 1] reads, at (g, z), the vector at g. -/
theorem toCol_apply {m : ℕ} (v : (⟨1, ![m]⟩ : Shape).Idx → α)
    (h : (⟨1, ![m]⟩ : Shape).BroadcastsInDim ⟨2, ![m, 1]⟩ ![0]) (g : Fin m) (z : Fin 1) :
    broadcastInDim ⟨2, ![m, 1]⟩ ![0] h v (ix2 g z) = v (ix1 g) := by
  refine broadcastInDim_apply _ h v (ix2 g z) (ix1 g) fun ax => ?_
  match ax with
  | ⟨0, _⟩ =>
    show g.val = if m = 1 then 0 else g.val
    split
    · have := g.isLt; omega
    · rfl

/-- A vector [m] laid down the rows of an [m, n] matrix (made a column, the column broadcast along the rows) reads,
    at (g, d), the vector at g. -/
theorem colRows_apply {m n : ℕ} (v : (⟨1, ![m]⟩ : Shape).Idx → α)
    (h4 : (⟨1, ![m]⟩ : Shape).BroadcastsInDim ⟨2, ![m, 1]⟩ ![0])
    (h3 : (⟨2, ![m, 1]⟩ : Shape).BroadcastsInDim ⟨2, ![m, n]⟩ ![0, 1]) (g : Fin m) (d : Fin n) :
    broadcastInDim ⟨2, ![m, n]⟩ ![0, 1] h3 (broadcastInDim ⟨2, ![m, 1]⟩ ![0] h4 v) (ix2 g d) = v (ix1 g) := by
  refine (broadcastInDim_apply _ h3 _ (ix2 g d) (ix2 g ⟨0, Nat.one_pos⟩) fun ax => ?_).trans (toCol_apply v h4 g _)
  match ax with
  | ⟨0, _⟩ =>
    show g.val = if m = 1 then 0 else g.val
    split
    · have := g.isLt; omega
    · rfl
  | ⟨1, _⟩ => rfl

/-- A vector [n] laid along the rows of an [m, n] matrix (made a row, the row broadcast down the rows) reads, at
    (g, d), the vector at d. -/
theorem rowRows_apply {m n : ℕ} (v : (⟨1, ![n]⟩ : Shape).Idx → α)
    (h4 : (⟨1, ![n]⟩ : Shape).BroadcastsInDim ⟨2, ![1, n]⟩ ![1])
    (h3 : (⟨2, ![1, n]⟩ : Shape).BroadcastsInDim ⟨2, ![m, n]⟩ ![0, 1]) (g : Fin m) (d : Fin n) :
    broadcastInDim ⟨2, ![m, n]⟩ ![0, 1] h3 (broadcastInDim ⟨2, ![1, n]⟩ ![1] h4 v) (ix2 g d) = v (ix1 d) := by
  refine (broadcastInDim_oneRow_apply h3 _ g d).trans ?_
  refine broadcastInDim_apply _ h4 v (ix2 (0 : Fin 1) d) (ix1 d) fun ax => ?_
  match ax with
  | ⟨0, _⟩ =>
    show d.val = if n = 1 then 0 else d.val
    split
    · have := d.isLt; omega
    · rfl

end Broadcasts

/-! ## The reference's node activations at one element -/

/-- The activation of node n in column d: max(agg[n,d] · rsqrt(deg dst)[n] + bias[d], 0). -/
theorem act_apply (ag : FVec Ideal Cert.ReferenceIdeal.S100000x128 .f32) (dst : IVec Cert.ReferenceIdeal.S1600000 32)
    (bias : FVec Ideal Cert.ReferenceIdeal.S128 .f32) (n : Fin 100000) (d : Fin 128) :
    Cert.ReferenceIdeal.Spec.act (F := Ideal) ag dst bias (ix2 n d)
      = max (ag (ix2 n d) * (Host.rsqrt (Cert.ReferenceIdeal.Spec.deg (F := Ideal) dst)) (ix1 n) + bias (ix1 d)) 0 := by
  unfold Cert.ReferenceIdeal.Spec.act
  rw [maximumf_apply, addf_apply, mulf_apply, colRows_apply, rowRows_apply, broadcastInDim_scalar_apply, constant_apply,
    Ideal.ofBits_zero_f32]

/-! ## Rows added into the rows their labels name, from zero, at one element -/

/-- Rows of an [N, D] array added into the rows of a zero [G, D] array that their labels name (the labels a vector
    made a column): element (g, d) of the result is the sum over ALL rows n of (1 if row n's label, read signed, is g,
    else 0) times row n's element in column d. -/
theorem rowScatterAdd_zero_apply {G N D : ℕ}
    (wf : ScatterDims.WF ⟨2, ![G, D]⟩ ⟨2, ![N, 1]⟩ ⟨2, ![N, D]⟩ [1] [0] [0] 1)
    (h0 : (⟨0, ![]⟩ : Shape).BroadcastsInDim ⟨2, ![G, D]⟩ ![])
    (h1 : (⟨1, ![N]⟩ : Shape).BroadcastsInDim ⟨2, ![N, 1]⟩ ![0])
    (lab : IVec ⟨1, ![N]⟩ 32) (upd : FVec Ideal ⟨2, ![N, D]⟩ .f32) (g : Fin G) (d : Fin D) :
    Host.scatterAdd (rowScatterDims G N D wf)
        (broadcastInDim ⟨2, ![G, D]⟩ ![] h0 (constant (F := Ideal) ⟨0, ![]⟩ .f32 0x00000000#32))
        (broadcastInDim ⟨2, ![N, 1]⟩ ![0] h1 lab) upd (ix2 g d)
      = ∑ n : Fin N, (if (lab (ix1 n)).toInt = (g.val : Int) then (1 : EReal) else 0) * upd (ix2 n d) := by
  unfold Host.scatterAdd
  rw [Ideal.hostScatterAdd_def, rowScatter_apply, broadcastInDim_scalar_apply, constant_apply, Ideal.ofBits_zero_f32,
    zero_add]
  refine Finset.sum_congr rfl fun n _ => ?_
  rw [toCol_apply, boole_mul]

/-! ## The reference's pooled rows at one element -/

/-- The pooled row g in column d: the sum over ALL nodes n of (1 if node n's label is g else 0) times the node's
    element. The program's record of the pooling scatter's dimensions is the record of a scatter of rows. -/
theorem pooled_apply (h : FVec Ideal Cert.ReferenceIdeal.S100000x128 .f32) (gid : IVec Cert.ReferenceIdeal.S100000 32)
    (g : Fin 100) (d : Fin 128) :
    Cert.ReferenceIdeal.Spec.pooled (F := Ideal) h gid (ix2 g d)
      = ∑ n : Fin 100000, (if (gid (ix1 n)).toInt = (g.val : Int) then (1 : EReal) else 0) * h (ix2 n d) :=
  rowScatterAdd_zero_apply Cert.ReferenceIdeal.Gen.scatter_S100x128_S100000x1_S100000x128_1_0_0_1_wf
    Cert.ReferenceIdeal.Gen.bcast_S_S100x128 Cert.ReferenceIdeal.Gen.bcast_S100000_S100000x1_0 gid h g d

end Cert.GraphPool.PoolBridge

end
-- ==== Proof.Readout.lean ====
/-
  The readout: the kernel's last payload is the reference's readout, at the ideal values.

  Both compute  sigmoid(relu(relu((pooled / cnt)·W1 + b1)·W2 + b2)·W3 + b3),  sigmoid x = 1 / (1 + e^(-x)).
  The kernel divides by the count column broadcast along the rows, multiplies into a zero accumulator, adds a bias row
  broadcast down the rows, takes the maximum with a zero splat, and ends with the logistic operation; the reference
  divides by the count vector made a column and broadcast, multiplies with no accumulator, adds a bias vector made a row
  and broadcast, takes the maximum with a broadcast zero, and spells the logistic function out. At the ideal values the
  narrowing before each product is the identity, a product into zero is the product, and the two products of a layer
  are one sum over one index set with the same operand indices, so the layers agree one by one as soon as the count
  column and the bias rows hold the count and bias vectors.
-/
import proofs.«419579_j69784628626008_2_alg».proof.Proof.Gen.KernelIdeal.Skeleton
import proofs.«419579_j69784628626008_2_alg».proof.Proof.RefSpec
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.GraphPool.Readout

open Idealize.ShloMosaic Idealize.ShloMosaic.ValueIdx

/-! ## Broadcasts read at an index -/

section Broadcasts
variable {α : Type}

/-- A column [m, 1] broadcast along the rows reads, at (g, d), the column at g. -/
theorem broadcastTo_col_apply {m n : ℕ} (v : (⟨2, ![m, 1]⟩ : Shape).Idx → α)
    (h : (⟨2, ![m, 1]⟩ : Shape).Broadcasts ⟨2, ![m, n]⟩) (g : Fin m) (d : Fin n) :
    broadcastTo ⟨2, ![m, n]⟩ v h (ix2 g d) = v (ix2 g ⟨0, Nat.one_pos⟩) := by
  refine broadcastTo_apply v h (ix2 g d) (ix2 g ⟨0, Nat.one_pos⟩) fun ax => ?_
  match ax with
  | ⟨0, _⟩ =>
    show g.val = if m = 1 then 0 else g.val
    split
    · have := g.isLt; omega
    · rfl
  | ⟨1, _⟩ => rfl

/-- The same column broadcast by the host's broadcast over both axes. -/
theorem broadcastInDim_col_apply {m n : ℕ} (v : (⟨2, ![m, 1]⟩ : Shape).Idx → α)
    (h : (⟨2, ![m, 1]⟩ : Shape).BroadcastsInDim ⟨2, ![m, n]⟩ ![0, 1]) (g : Fin m) (d : Fin n) :
    broadcastInDim ⟨2, ![m, n]⟩ ![0, 1] h v (ix2 g d) = v (ix2 g ⟨0, Nat.one_pos⟩) := by
  refine broadcastInDim_apply _ h v (ix2 g d) (ix2 g ⟨0, Nat.one_pos⟩) fun ax => ?_
  match ax with
  | ⟨0, _⟩ =>
    show g.val = if m = 1 then 0 else g.val
    split
    · have := g.isLt; omega
    · rfl
  | ⟨1, _⟩ => rfl

/-- A row [1, n] broadcast over m rows by the host's broadcast over both axes reads, at (g, d), the row at d. -/
theorem broadcastInDim_row_apply {m n : ℕ} (v : (⟨2, ![1, n]⟩ : Shape).Idx → α)
    (h : (⟨2, ![1, n]⟩ : Shape).BroadcastsInDim ⟨2, ![m, n]⟩ ![0, 1]) (g : Fin m) (d : Fin n) :
    broadcastInDim ⟨2, ![m, n]⟩ ![0, 1] h v (ix2 g d) = v (ix2 ⟨0, Nat.one_pos⟩ d) := by
  refine broadcastInDim_apply _ h v (ix2 g d) (ix2 ⟨0, Nat.one_pos⟩ d) fun ax => ?_
  match ax with
  | ⟨0, _⟩ => rfl
  | ⟨1, _⟩ =>
    show d.val = if n = 1 then 0 else d.val
    split
    · have := d.isLt; omega
    · rfl

/-- A vector [m] made a column [m, 1] reads, at (g, z), the vector at g. -/
theorem broadcastInDim_toCol_apply {m : ℕ} (v : (⟨1, ![m]⟩ : Shape).Idx → α)
    (h : (⟨1, ![m]⟩ : Shape).BroadcastsInDim ⟨2, ![m, 1]⟩ ![0]) (g : Fin m) (z : Fin 1) :
    broadcastInDim ⟨2, ![m, 1]⟩ ![0] h v (ix2 g z) = v (ix1 g) := by
  refine broadcastInDim_apply _ h v (ix2 g z) (ix1 g) fun ax => ?_
  match ax with
  | ⟨0, _⟩ =>
    show g.val = if m = 1 then 0 else g.val
    split
    · have := g.isLt; omega
    · rfl

/-- A vector [n] made a row [1, n] reads, at (z, d), the vector at d. -/
theorem broadcastInDim_toRow_apply {n : ℕ} (v : (⟨1, ![n]⟩ : Shape).Idx → α)
    (h : (⟨1, ![n]⟩ : Shape).BroadcastsInDim ⟨2, ![1, n]⟩ ![1]) (z : Fin 1) (d : Fin n) :
    broadcastInDim ⟨2, ![1, n]⟩ ![1] h v (ix2 z d) = v (ix1 d) := by
  refine broadcastInDim_apply _ h v (ix2 z d) (ix1 d) fun ax => ?_
  match ax with
  | ⟨0, _⟩ =>
    show d.val = if n = 1 then 0 else d.val
    split
    · have := d.isLt; omega
    · rfl

end Broadcasts

/-! ## The layers, kernel spelling against reference spelling -/

section Layers

/-- The mean: the pooled rows divided by the count column broadcast along the rows, in the kernel's spelling (a cast
    of the column to itself, broadcast) and in the reference's (the count vector made a column, broadcast over both
    axes, the host's quotient). -/
theorem mean_eq {m n : ℕ} (p : FVec Ideal ⟨2, ![m, n]⟩ .f32) (cn2 : FVec Ideal ⟨2, ![m, 1]⟩ .f32)
    (cn : FVec Ideal ⟨1, ![m]⟩ .f32) (hcn : ∀ g : Fin m, cn2 (ix2 g ⟨0, Nat.one_pos⟩) = cn (ix1 g))
    (h1 : (⟨2, ![m, 1]⟩ : Shape).ShapeCasts ⟨2, ![m, 1]⟩) (h2 : (⟨2, ![m, 1]⟩ : Shape).Broadcasts ⟨2, ![m, n]⟩)
    (h3 : (⟨2, ![m, 1]⟩ : Shape).BroadcastsInDim ⟨2, ![m, n]⟩ ![0, 1])
    (h4 : (⟨1, ![m]⟩ : Shape).BroadcastsInDim ⟨2, ![m, 1]⟩ ![0]) :
    divf p (broadcastTo ⟨2, ![m, n]⟩ (shapeCast ⟨2, ![m, 1]⟩ cn2 h1) h2)
      = Host.divf p (broadcastInDim ⟨2, ![m, n]⟩ ![0, 1] h3 (broadcastInDim ⟨2, ![m, 1]⟩ ![0] h4 cn)) := by
  funext j
  obtain ⟨g, d, rfl⟩ : ∃ g d, j = ix2 g d := ⟨j 0, j 1, eq_ix2 j⟩
  rw [divf_apply, hostDivf_apply, shapeCast_self, broadcastTo_col_apply, broadcastInDim_col_apply,
    broadcastInDim_toCol_apply, hcn]

/-- A dense layer before its rectifier: the kernel's product of the operands (narrowed, which changes nothing here)
    into a zero accumulator plus the bias row broadcast down the rows, against the reference's product plus the bias
    vector made a row and broadcast over both axes. -/
theorem affine_eq {m n : ℕ} {sl sr : Shape} (d : DotDims sl sr ⟨2, ![m, n]⟩) (x : FVec Ideal sl .f32)
    (w : FVec Ideal sr .f32) (br : FVec Ideal ⟨2, ![1, n]⟩ .f32) (b : FVec Ideal ⟨1, ![n]⟩ .f32)
    (hb : ∀ j : Fin n, br (ix2 ⟨0, Nat.one_pos⟩ j) = b (ix1 j)) (hlt : FTy.bits .bf16 < FTy.bits .f32)
    (h1 : (⟨2, ![1, n]⟩ : Shape).ShapeCasts ⟨2, ![1, n]⟩) (h2 : (⟨2, ![1, n]⟩ : Shape).Broadcasts ⟨2, ![m, n]⟩)
    (h3 : (⟨2, ![1, n]⟩ : Shape).BroadcastsInDim ⟨2, ![m, n]⟩ ![0, 1])
    (h4 : (⟨1, ![n]⟩ : Shape).BroadcastsInDim ⟨2, ![1, n]⟩ ![1]) :
    addf (matmul d none (truncf .bf16 x hlt) (truncf .bf16 w hlt) (constant ⟨2, ![m, n]⟩ .f32 0x00000000#32))
        (broadcastTo ⟨2, ![m, n]⟩ (shapeCast ⟨2, ![1, n]⟩ br h1) h2)
      = addf (Host.dotGeneral d none x w)
        (broadcastInDim ⟨2, ![m, n]⟩ ![0, 1] h3 (broadcastInDim ⟨2, ![1, n]⟩ ![1] h4 b)) := by
  rw [matmul_zero_eq_dotGeneral]
  funext j
  obtain ⟨g, c, rfl⟩ : ∃ g c, j = ix2 g c := ⟨j 0, j 1, eq_ix2 j⟩
  rw [addf_apply, addf_apply, shapeCast_self, broadcastTo_1b_ab_apply, broadcastInDim_row_apply,
    broadcastInDim_toRow_apply]
  exact congrArg₂ (· + ·) rfl (hb c)

/-- The rectifier: the maximum with the kernel's zero splat is the maximum with the reference's broadcast zero. -/
theorem relu_eq {t : Shape} (y : FVec Ideal t .f32) (h : (⟨0, ![]⟩ : Shape).BroadcastsInDim t ![]) :
    maximumf y (broadcast t (Scalar.ofBits .f32 0x00000000#32))
      = maximumf y (broadcastInDim t ![] h (constant ⟨0, ![]⟩ .f32 0x00000000#32)) := by
  rw [broadcastInDim_constant]

/-- The logistic function is 1 / (1 + e^(-x)), which the reference spells with the host's operations and two
    broadcast ones. -/
theorem logistic_eq {t : Shape} (y : FVec Ideal t .f32) (h : (⟨0, ![]⟩ : Shape).BroadcastsInDim t ![]) :
    logistic y
      = Host.divf (broadcastInDim t ![] h (constant ⟨0, ![]⟩ .f32 0x3F800000#32))
          (addf (broadcastInDim t ![] h (constant ⟨0, ![]⟩ .f32 0x3F800000#32)) (Host.exp (Host.negf y))) := by
  funext j
  rw [hostDivf_apply, addf_apply, broadcastInDim_scalar_apply, constant_apply, Ideal.ofBits_one_f32]
  rfl

end Layers

/-! ## The readout -/

/-- The two programs' records of the first product's dimensions are one record. -/
theorem dot1_eq : Cert.KernelIdeal.dot_S100x128_S128x16_S100x16_1_0_0_1_n_n
    = Cert.ReferenceIdeal.dot_S100x128_S128x16_S100x16_1_0_0_1_n_n := rfl
/-- So are those of the second product … -/
theorem dot2_eq : Cert.KernelIdeal.dot_S100x16_S16x8_S100x8_1_0_0_1_n_n
    = Cert.ReferenceIdeal.dot_S100x16_S16x8_S100x8_1_0_0_1_n_n := rfl
/-- … and of the third. -/
theorem dot3_eq : Cert.KernelIdeal.dot_S100x8_S8x1_S100x1_1_0_0_1_n_n
    = Cert.ReferenceIdeal.dot_S100x8_S8x1_S100x1_1_0_0_1_n_n := rfl

/-- The kernel's last payload is the reference's readout, given that the count column and the three bias rows hold the
    reference's count and bias vectors. Both contract over the same index set with the same operand indices (the two
    programs' dimension records are one record), so the layers are compared one by one. -/
theorem readout_eq (cn : FVec Ideal Cert.ReferenceIdeal.S100 .f32) (cn2 : Vec Ideal Cert.KernelIdeal.S100x1 .f32)
    (hcn : ∀ g : Fin 100, cn2 (ix2 g ⟨0, Nat.one_pos⟩) = cn (ix1 g))
    (p : FVec Ideal Cert.ReferenceIdeal.S100x128 .f32) (w1 : FVec Ideal Cert.ReferenceIdeal.S128x16 .f32)
    (b1 : FVec Ideal Cert.ReferenceIdeal.S16 .f32) (b1r : Vec Ideal Cert.KernelIdeal.S1x16 .f32)
    (hb1 : ∀ j : Fin 16, b1r (ix2 ⟨0, Nat.one_pos⟩ j) = b1 (ix1 j))
    (w2 : FVec Ideal Cert.ReferenceIdeal.S16x8 .f32)
    (b2 : FVec Ideal Cert.ReferenceIdeal.S8 .f32) (b2r : Vec Ideal Cert.KernelIdeal.S1x8 .f32)
    (hb2 : ∀ j : Fin 8, b2r (ix2 ⟨0, Nat.one_pos⟩ j) = b2 (ix1 j))
    (w3 : FVec Ideal Cert.ReferenceIdeal.S8x1 .f32)
    (b3 : FVec Ideal Cert.ReferenceIdeal.S1 .f32) (b3r : Vec Ideal Cert.KernelIdeal.S1x1 .f32)
    (hb3 : ∀ j : Fin 1, b3r (ix2 ⟨0, Nat.one_pos⟩ j) = b3 (ix1 j)) :
    Cert.KernelIdeal.Gen.k0_pay3 (F := Ideal) cn2 p w1 b1r w2 b2r w3 b3r
      = Cert.ReferenceIdeal.Spec.readout (F := Ideal) cn p w1 b1 w2 b2 w3 b3 := by
  unfold Cert.KernelIdeal.Gen.k0_pay3 Cert.ReferenceIdeal.Spec.readout
  simp only []
  rw [dot1_eq, dot2_eq, dot3_eq,
    mean_eq p cn2 cn hcn _ _ Cert.ReferenceIdeal.Gen.bcast_S100x1_S100x128_0_1 Cert.ReferenceIdeal.Gen.bcast_S100_S100x1_0,
    affine_eq _ _ w1 b1r b1 hb1 _ _ _ Cert.ReferenceIdeal.Gen.bcast_S1x16_S100x16_0_1 Cert.ReferenceIdeal.Gen.bcast_S16_S1x16_1,
    relu_eq _ Cert.ReferenceIdeal.Gen.bcast_S_S100x16,
    affine_eq _ _ w2 b2r b2 hb2 _ _ _ Cert.ReferenceIdeal.Gen.bcast_S1x8_S100x8_0_1 Cert.ReferenceIdeal.Gen.bcast_S8_S1x8_1,
    relu_eq _ Cert.ReferenceIdeal.Gen.bcast_S_S100x8,
    affine_eq _ _ w3 b3r b3 hb3 _ _ _ Cert.ReferenceIdeal.Gen.bcast_S1x1_S100x1_0_1 Cert.ReferenceIdeal.Gen.bcast_S1_S1x1_1,
    logistic_eq _ Cert.ReferenceIdeal.Gen.bcast_S_S100x1]

end Cert.GraphPool.Readout

end
-- ==== Proof.KernelResult.lean ====
/-
  The kernel program computes the reference's function of the argument arrays.

  After the run the kernel program's result array holds the readout payload (mean, three dense layers, logistic) of
  the node-count column, the accumulator after the last grid point, and the dense layers' arrays.  The accumulator is the
  sum over all nodes of (indicator of the node's graph label) times the node's activation, which is the reference's pooled
  rows (a segment sum read as a sum over all nodes); the activations agree because the aggregated edge messages agree; the
  readout payload is the reference's readout.  So the result is the reference's `result` of the same arguments.
-/
import proofs.«419579_j69784628626008_2_alg».proof.Proof.KernelFinal
import proofs.«419579_j69784628626008_2_alg».proof.Proof.KernelPool
import proofs.«419579_j69784628626008_2_alg».proof.Proof.HostAgg
import proofs.«419579_j69784628626008_2_alg».proof.Proof.HostCols
import proofs.«419579_j69784628626008_2_alg».proof.Proof.HostRows
import proofs.«419579_j69784628626008_2_alg».proof.Proof.MsgBridge
import proofs.«419579_j69784628626008_2_alg».proof.Proof.PoolBridge
import proofs.«419579_j69784628626008_2_alg».proof.Proof.Readout

noncomputable section

namespace Cert.KernelIdeal.Result

open Cert.KernelIdeal Cert.KernelIdeal.Gen Idealize.ShloMosaic Idealize.ShloMosaic.TcCoe Idealize.SL.Sem Idealize.ShloMosaic.ValueIdx
open Cert.GraphPool Cert.GraphPool.Bridge Cert.GraphPool.PoolBridge

variable (m : (ℓ : Loc nD τ sig) → Buf (Elt Ideal) ℓ) (ρ : Dev nD → PrngReg)

/-- The argument arrays, by name. -/
abbrev feat (c : Dev nD) : FVec Ideal S100000x128 .f32 := m ((c : Thread nD τ).loc main_arg0)
abbrev ew (c : Dev nD) : FVec Ideal S1600000 .f32 := m ((c : Thread nD τ).loc main_arg1)
abbrev src (c : Dev nD) : IVec S1600000 32 := m ((c : Thread nD τ).loc main_arg2)
abbrev dst (c : Dev nD) : IVec S1600000 32 := m ((c : Thread nD τ).loc main_arg3)
abbrev gid (c : Dev nD) : IVec S100000 32 := m ((c : Thread nD τ).loc main_arg4)
abbrev bias (c : Dev nD) : FVec Ideal S128 .f32 := m ((c : Thread nD τ).loc main_arg7)
abbrev w1 (c : Dev nD) : FVec Ideal S128x16 .f32 := m ((c : Thread nD τ).loc main_arg8)
abbrev b1 (c : Dev nD) : FVec Ideal S16 .f32 := m ((c : Thread nD τ).loc main_arg9)
abbrev w2 (c : Dev nD) : FVec Ideal S16x8 .f32 := m ((c : Thread nD τ).loc main_arg10)
abbrev b2 (c : Dev nD) : FVec Ideal S8 .f32 := m ((c : Thread nD τ).loc main_arg11)
abbrev w3 (c : Dev nD) : FVec Ideal S8x1 .f32 := m ((c : Thread nD τ).loc main_arg12)
abbrev b3 (c : Dev nD) : FVec Ideal S1 .f32 := m ((c : Thread nD τ).loc main_arg13)

/-- The reference's aggregated rows of the kernel program's arguments. -/
abbrev refAgg (c : Dev nD) : FVec Ideal S100000x128 .f32 :=
  Cert.ReferenceIdeal.Spec.agg (F := Ideal) (Cert.ReferenceIdeal.Spec.msg (feat m c) (ew m c) (src m c)) (dst m c)

/-- The first window's array is the reference's aggregated rows. -/
theorem aggArr_eq (c : Dev nD) : Pool2.aggArr m c = refAgg m c :=
  (HostAgg.V_agg m c).trans (agg_eq (feat m c) (ew m c) (src m c) (dst m c))

/-- The label column reads the labels. -/
theorem lbl_apply (c : Dev nD) (n : Fin 100000) : Pool2.lblArr m c (ix2 n ⟨0, Nat.one_pos⟩) = gid m c (ix1 n) := by
  show (V m c main_v42 : IVec S100000x1 32) (ix2 n ⟨0, Nat.one_pos⟩) = _
  rw [HostCols.V_gid m c]
  exact col_apply _ _ n

/-- The norm column reads the reference's destination-side norm. -/
theorem inv_apply (c : Dev nD) (n : Fin 100000) :
    Pool2.invArr m c (ix2 n ⟨0, Nat.one_pos⟩) = (Host.rsqrt (Cert.ReferenceIdeal.Spec.deg (F := Ideal) (dst m c))) (ix1 n) := by
  show (V m c main_v13 : FVec Ideal S100000x1 .f32) (ix2 n ⟨0, Nat.one_pos⟩) = _
  rw [HostCols.V_invIn m c, deg_eq]
  exact col_apply _ _ n

/-- The bias row reads the bias. -/
theorem bias_apply (c : Dev nD) (d : Fin 128) : Pool2.biasRow m c (ix2 ⟨0, Nat.one_pos⟩ d) = bias m c (ix1 d) := by
  show (V m c main_v43 : FVec Ideal S1x128 .f32) (ix2 ⟨0, Nat.one_pos⟩ d) = _
  rw [HostRows.V_bias m c]
  exact row_apply _ _ d

/-- The accumulator after the last point is the reference's pooled rows. -/
theorem acc_eq (c : Dev nD) : ((outsAt0 m c 19 Final.h19).2 : FVec Ideal S100x128 .f32)
    = Cert.ReferenceIdeal.Spec.pooled (F := Ideal) (Cert.ReferenceIdeal.Spec.act (refAgg m c) (dst m c) (bias m c)) (gid m c) := by
  funext i
  obtain ⟨g, d, rfl⟩ : ∃ (g : Fin 100) (d : Fin 128), i = ix2 g d := ⟨i 0, i 1, eq_ix2 i⟩
  rw [pooled_apply]
  refine (Pool2.acc_last m c g d).trans (Finset.sum_congr rfl fun n _ => ?_)
  rw [act_apply, lbl_apply, aggArr_eq, inv_apply, bias_apply]

/-- The kernel program's result is the reference's function of its arguments. -/
theorem result_eq (c : Dev nD) :
    k0_pay3 (F := Ideal) (V m c main_v41) ((outsAt0 m c 19 Final.h19).2) (V m c main_arg8) (V m c main_v44) (V m c main_arg10) (V m c main_v45)
        (V m c main_arg12) (V m c main_v46)
      = Cert.ReferenceIdeal.Spec.result (F := Ideal) (feat m c) (ew m c) (src m c) (dst m c) (gid m c) (bias m c) (w1 m c) (b1 m c) (w2 m c) (b2 m c) (w3 m c) (b3 m c) := by
  rw [acc_eq, V_main_arg8, V_main_arg10, V_main_arg12]
  refine Readout.readout_eq (Cert.ReferenceIdeal.Spec.cnt (F := Ideal) (gid m c)) _ (fun g => ?_) _ (w1 m c) (b1 m c) _ (fun j => ?_) (w2 m c) (b2 m c) _ (fun j => ?_)
    (w3 m c) (b3 m c) _ (fun j => ?_)
  · rw [HostCols.V_cnt m c, cnt_eq]; exact col_apply _ _ g
  · rw [HostRows.V_b1 m c]; exact row_apply _ _ j
  · rw [HostRows.V_b2 m c]; exact row_apply _ _ j
  · rw [HostRows.V_b3 m c]; exact row_apply _ _ j

/-- The run of the kernel program: its result array at the reference's function of the arguments, the arguments unchanged. -/
theorem run : θ_run defs (onTc (τ := τ) (main (F := Ideal))) ⟨m, fun _ => 0, ρ⟩ fun r => ∀ c : Dev nD,
      r.2.mem ((c : Thread nD τ).loc main_v47)
        = Cert.ReferenceIdeal.Spec.result (F := Ideal) (feat m c) (ew m c) (src m c) (dst m c) (gid m c) (bias m c) (w1 m c) (b1 m c) (w2 m c) (b2 m c) (w3 m c) (b3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨(h c).1.trans (result_eq m c), (h c).2⟩) (Final.run_out m ρ)

end Cert.KernelIdeal.Result

end
-- ==== Proof.RefTerm.lean ====
/-
  The reference program's run ends with its result array at the named pieces composed (RefSpec's `result`) of the
  argument arrays: the program's own composed term is those definitions unfolded.
-/
import proofs.«419579_j69784628626008_2_alg».proof.Proof.RefSpec
import proofs.«419579_j69784628626008_2_alg».proof.Proof.Gen.ReferenceIdeal.Run

noncomputable section

namespace Cert.ReferenceIdeal.Spec

open Cert.ReferenceIdeal Cert.ReferenceIdeal.Gen Idealize.ShloMosaic Idealize.ShloMosaic.TcCoe Idealize.SL.Sem

variable {F : FTy → Type} [FloatOps F]

set_option maxRecDepth 8192 in
/-- The program's composed result term is `result` of the arguments' launch contents. -/
theorem res_eq (m : (ℓ : Loc nD τ sig) → Buf (Elt F) ℓ) (c : Dev nD) :
    Cert.ReferenceIdeal.Value.res_main_v132 m c
      = result (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) := by
  unfold Cert.ReferenceIdeal.Value.res_main_v132 result readout pooled cnt act agg msg wrapped deg edgeOnes
  rfl

end Cert.ReferenceIdeal.Spec

end
-- ==== Proof.lean ====
/-
  A fused graph readout against its jnp reference, over the extended reals.

  Both programs compute, for a batch of graphs stored as one big graph, a graph convolution (edge messages
  x[src]·w scaled by the rsqrt of the clipped out- and in-degrees, added into their destination rows, plus a bias,
  rectified), the mean of the node rows of every graph, and a three-layer perceptron ending in a logistic function.
  The reference does it with gathers and segment sums on the host; the kernel program keeps the edge gather and scatter
  on the host (folding the source-side norm into the edge weight) and fuses the rest into one kernel over twenty tiles
  of 5000 node rows: per tile a one-hot(label)ᵀ · activation matrix product accumulated in a scratch block, and at the
  last tile the mean, the perceptron and the logistic function.

  Why they agree at the ideal instance: (1) the edge messages are the same products of three extended reals in another
  order; (2) a segment sum of rows by label is the sum over all rows of (indicator of the label) times the row, and the
  twenty tiles' partial sums add up to the sum over all rows — addition of extended reals is commutative and associative
  and zero times anything is zero, so no finiteness is needed; (3) a matrix product into a zero accumulator is the host's
  dot product, a change of float format is the identity, and the logistic function is 1 / (1 + e^(-x)) on both sides;
  (4) a maximum does not depend on the order of its arguments (the two programs clip the degrees and counts with the
  arguments swapped).  The precondition (finite inputs) is not used.

  The frames of the two kernel programs are the generated ones; the reference's frame is its generated run with the
  result dropped; the ideal pass rewrote nothing, so `preserves` is `True`.
-/
import proofs.«419579_j69784628626008_2_alg».proof.Defs
import proofs.«419579_j69784628626008_2_alg».proof.Proof.Gen.Kernel
import proofs.«419579_j69784628626008_2_alg».proof.Proof.Gen.Kernel.Skeleton
import proofs.«419579_j69784628626008_2_alg».proof.Proof.Gen.Kernel.Launch
import proofs.«419579_j69784628626008_2_alg».proof.Proof.Gen.Kernel.Points
import proofs.«419579_j69784628626008_2_alg».proof.Proof.Gen.Kernel.Frame
import proofs.«419579_j69784628626008_2_alg».proof.Proof.Gen.KernelIdeal
import proofs.«419579_j69784628626008_2_alg».proof.Proof.Gen.KernelIdeal.Skeleton
import proofs.«419579_j69784628626008_2_alg».proof.Proof.Gen.KernelIdeal.Launch
import proofs.«419579_j69784628626008_2_alg».proof.Proof.Gen.KernelIdeal.Points
import proofs.«419579_j69784628626008_2_alg».proof.Proof.Gen.KernelIdeal.Frame
import proofs.«419579_j69784628626008_2_alg».proof.Proof.Gen.ReferenceIdeal
import proofs.«419579_j69784628626008_2_alg».proof.Proof.Gen.Pre_finite_inputs
import proofs.«419579_j69784628626008_2_alg».proof.Proof.Gen.KernelIdeal.Value
import proofs.«419579_j69784628626008_2_alg».proof.Proof.Gen.ReferenceIdeal.Run
import proofs.«419579_j69784628626008_2_alg».proof.Proof.Gen.ReferenceIdeal.Read
import proofs.«419579_j69784628626008_2_alg».proof.Proof.KernelResult
import proofs.«419579_j69784628626008_2_alg».proof.Proof.RefTerm
import Idealize.ShloMosaic.Adequacy
import Idealize.ShloMosaic.Init

noncomputable section

namespace Cert.Proof

open Idealize.ShloMosaic Idealize.SL.Sem

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the reference's function of the arguments
    in their result arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, _, _, h7, h8, h9, h10, h11, h12, h13⟩ := hagree c
  rw [Cert.ReferenceIdeal.Spec.res_eq, h0, h1, h2, h3, h4, h7, h8, h9, h10, h11, h12, h13]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
